-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg3 : FVec F S4096 .f32) (main_arg5 : FVec F S4096x4096 .f32) (main_arg6 : FVec F S4096x4096 .f32) (main_v12 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v12 main_v16
  let main_v18 : FVec F S4096x4096 .f32 := Host.absf main_arg5
  let main_cst_6 : FVec F S_ .f32 := constant S_ .f32 0x7F800000#32
  let main_v19 : FVec F S4096x4096 .f32 := broadcastInDim S4096x4096 ![] bcast_S_S4096x4096 main_cst_6
  let main_v20 : IVec S4096x4096 1 := cmpf .olt main_v18 main_v19
  let main_c_7 : IVec S_ 1 := constantI S_ 1 1#1
  let main_v21 : IVec S_ 1 := (fun x v => Host.reduce IntOp.andi x v reducesTo_S4096x4096_S_d0_1 h_S_) main_v20 main_c_7
  let main_v22 : IVec S_ 1 := andi main_v17 main_v21
  let main_v23 : FVec F S4096x4096 .f32 := Host.absf main_arg6
  let main_cst_8 : FVec F S_ .f32 := constant S_ .f32 0x7F800000#32
  let main_v24 : FVec F S4096x4096 .f32 := broadcastInDim S4096x4096 ![] bcast_S_S4096x4096 main_cst_8
  let main_v25 : IVec S4096x4096 1 := cmpf .olt main_v23 main_v24
  let main_c_9 : IVec S_ 1 := constantI S_ 1 1#1
  let main_v26 : IVec S_ 1 := (fun x v => Host.reduce IntOp.andi x v reducesTo_S4096x4096_S_d0_1 h_S_) main_v25 main_c_9
  let main_v27 : IVec S_ 1 := andi main_v22 main_v26
  let main_cst_10 : FVec F S_ .f32 := constant S_ .f32 0x00000000#32
  let main_v28 : FVec F S4096 .f32 := broadcastInDim S4096 ![] bcast_S_S4096 main_cst_10
  let main_v29 : IVec S4096 1 := cmpf .une main_arg3 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  main_v31

def fn {F : FTy → Type} [FloatOps F] (main_arg0 : FVec F S4x2048x4096 .f32) (main_arg1 : IVec S4096x4096 32) (main_arg2 : FVec F S_ .f32) (main_arg3 : FVec F S4096 .f32) (main_arg4 : FVec F S4096 .f32) (main_arg5 : FVec F S4096x4096 .f32) (main_arg6 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096 .f32 := Host.absf main_arg3
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  let main_v13 : FVec F S4096 .f32 := Host.absf main_arg4
  let main_cst_4 : FVec F S_ .f32 := constant S_ .f32 0x7F800000#32
  let main_v14 : FVec F S4096 .f32 := broadcastInDim S4096 ![] bcast_S_S4096 main_cst_4
  let main_v15 : IVec S4096 1 := cmpf .olt main_v13 main_v14
  let main_c_5 : IVec S_ 1 := constantI S_ 1 1#1
  fn_part1 (F := F) main_arg3 main_arg5 main_arg6 main_v12 main_v15 main_c_5
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x1x4096 : Shape := ⟨3, ![1, 1, 4096]⟩
abbrev S8192x4096 : Shape := ⟨2, ![8192, 4096]⟩
abbrev S1x4096 : Shape := ⟨2, ![1, 4096]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 33
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S_, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .i32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S4096x4096, .bf16⟩
  | .hbm, ⟨22, _⟩ => ⟨S4096x4096, .bf16⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S4x2048x4096, .bf16⟩
  | .hbm, ⟨27, _⟩ => ⟨S8192x4096, .bf16⟩
  | .hbm, ⟨28, _⟩ => ⟨S1x4096, .f32⟩
  | .hbm, ⟨29, _⟩ => ⟨S4096x4096, .bf16⟩
  | .hbm, ⟨30, _⟩ => ⟨S4096x4096, .bf16⟩
  | .hbm, ⟨31, _⟩ => ⟨S8192x4096, .f32⟩
  | .hbm, ⟨32, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  bitsLt_bf16_f32 : FTy.bits .bf16 < FTy.bits .f32
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x4096.size a
  hwx2_0 : ∀ i : grid2.Coords, EltTy.bits .bf16 = 32 ∨ (Rect.block (s := S8192x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x4096.size a
  hwx2_3 : ∀ i : grid2.Coords, EltTy.bits .f32 = 32 ∨ (Rect.block (s := S8192x4096) S512x1024.size (cc2_transform_3 i) (hinb2_3 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v17) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S_, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .i32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Bits.R0Base.lean ====
/-
  The first matrix product, tmp = Uᵀ · w0, as a pipeline over the grid (i, j, k) ∈ 4 × 4 × 4 of 1024 × 1024 blocks:
  what this file fixes is independent of the arithmetic — the block of each operand at a grid point, that an
  operand's staging buffer holds its block whenever the body runs, the two branch conditions of the body in
  closed form (k = 0: the accumulator is reset; k = 3: the accumulator is written out), and where the output
  window is idle (every point with k < 3).
-/
import proofs.«105784_j76063870812747_1_alg».proof.Proof.Gen.Kernel.Launch
import proofs.«105784_j76063870812747_1_alg».proof.Proof.Gen.Kernel.Skeleton
import proofs.«105784_j76063870812747_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is at this parameter
variable (V : (c : Dev nD) → (b : Ref sig .tc) → Buf (Elt F) ((c : Thread nD τ).loc b))

/-! ## The operands' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over the entry contents
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "k = 0", as the body computes it from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is a multiple of 4 (k is the fastest coordinate). -/
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", as the body computes it. -/
abbrev cond0_1 (i : grid0.Coords) : Prop := k0_cond2 i = 1#1
/-- It holds exactly at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where k < 3 the output window is idle, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where k = 3 the output window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0 : Memref sig .tc .vmem S1024x1024 .f32 := Memref.whole cc0_scratch0
/-- One staging buffer of the output window, and the accumulator, as views through which contents are stated. -/
abbrev VO0 : View sig .tc .vmem S1024x1024 .bf16 := (Memref.whole cc0_stg2_0 : Memref sig .tc .vmem S1024x1024 .bf16).view
abbrev VS0 : View sig .tc .vmem S1024x1024 .f32 := scM0.view

/-- Every scoped buffer of the core that is neither a staging buffer of this call nor its accumulator — the other
    calls' staging buffers and accumulators —, each whole at some contents: it rides through the region unopened. -/
abbrev scRest0 (c : Dev nD) : sProp 𝕄 :=
  Pipeline.scopedRestBut (Ix := Unit) (Name := ℕ) (U := UR sig nD τ) (Lvl := ℕ) (Val := Elt F) spec0 c [cc0_scratch0]

/-- The invariant the region is entered with: the accumulator owned at some contents, the other scoped buffers, and
    the generator register at some state. -/
theorem PhiA0_eq (c : Dev nD) :
    (Pipeline.ΦA spec0 c : sProp 𝕄)
      = iprop(iprop((∃ d, owns (c : Thread nD τ) scM0 fullShare d) ∗ scRest0 c) ∗ (∃ r, prngReg c r)) := by
  unfold Pipeline.ΦA scRest0
  rw [Pipeline.scopedRest_split_of_list spec0 c [cc0_scratch0] (by decide) (by decide)]
  simp only [scM0, owns_whole, bigSepL]
  try rfl

end Cert.Kernel.Frm

end
-- ==== Proof.Bits.R0RunA.lean ====
/-
  The body at a grid point with k = 0 (and k ≠ 3): the accumulator, whatever it held, is reset to zero and the first
  partial product is added to it; the output block is not touched. What the stores leave in the accumulator is found
  by running the body; the pieces written are the witness.
-/
import proofs.«105784_j76063870812747_1_alg».proof.Proof.Bits.R0Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.Bits.R0RunB.lean ====
/-
  The body at a grid point with 0 < k < 3: the next partial product is added to the accumulator the point before
  left; the output block is not touched.
-/
import proofs.«105784_j76063870812747_1_alg».proof.Proof.Bits.R0RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.Bits.R0RunC.lean ====
/-
  The body at a grid point with k = 3: the last partial product is added to the accumulator, and the accumulator,
  narrowed to bf16, is stored whole into the output block.
-/
import proofs.«105784_j76063870812747_1_alg».proof.Proof.Bits.R0RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.Bits.R0Data.lean ====
/-
  The first matrix product, tmp = Uᵀ · w0, point by point. At a grid point (i, j, k) the accumulator ends at
  (k = 0 ? 0 : what the point before left) + the product of the two operand blocks; at k = 3 the output block ends at
  that accumulator narrowed to bf16, and at k < 3 the output block is idle. This file names those contents for every
  point (`outsAt0`), states the invariant that carries the accumulator from a point to the next, gives the
  pipeline's proof data over them and proves the body's obligation at every point from the three runs of the body.
-/
import proofs.«105784_j76063870812747_1_alg».proof.Proof.Bits.R0RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: the stores into the accumulator cover it (one of them is the whole block). -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).1, y ∈ pc.1.set :=
  View.cover_of_wholeMem (kernelRun0_A c i arg3 harg3 arg4 harg4 arg5 harg5 arg6 harg6 hc0 hc1 x0 x1).1 (by sl_whole_mem) y

/-- k = 0: what the accumulator holds afterwards. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0.read (Elt F) (VS0.writes (Elt F) VS0.junk (kernelRun0_A c i arg3 harg3 arg4 harg4 arg5 harg5 arg6 harg6 hc0 hc1 x0 x1).1)

/-- 0 < k < 3: the store into the accumulator covers it. -/
theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_wholeMem (kernelRun0_B c i arg3 harg3 arg4 harg4 arg5 harg5 arg6 harg6 hc0 hc1 x0 x1 xs0).1 (by sl_whole_mem) y

/-- 0 < k < 3: what the accumulator holds afterwards. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs0).1)

/-- k = 3: the store into the output block covers it. -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_wholeMem (kernelRun0_C c i arg3 harg3 arg4 harg4 arg5 harg5 arg6 harg6 hc0 hc1 x0 x1 xs0).1 (by sl_whole_mem) y

/-- k = 3: what the output block holds afterwards. -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .bf16 :=
  VO0.read (Elt F) (VO0.writes (Elt F) VO0.junk (kernelRun0_C c i arg3 harg3 arg4 harg4 arg5 harg5 arg6 harg6 hc0 hc1 x0 x1 xs0).1)

/-- k = 3: the store into the accumulator covers it. -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_wholeMem (kernelRun0_C c i arg3 harg3 arg4 harg4 arg5 harg5 arg6 harg6 hc0 hc1 x0 x1 xs0).2.1 (by sl_whole_mem) y

/-- k = 3: what the accumulator holds afterwards. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs0).2.1)

/-! ## Point by point -/

/-- An output block nobody reads: where k < 3 the window is idle, neither written back nor read at the next point. -/
def idleOut0 : Vec F S1024x1024 .bf16 := VO0.read (Elt F) VO0.junk

/-- What the output's staging buffer and the accumulator hold after the body at position `n`: by the case of
    k = n mod 4, the accumulator of the point before fed to the cases with k > 0. -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point with k = 0. -/
theorem outsAt0_A (c : Dev nD) (t : Fin cfg0.N) (h0 : t.val % 4 = 0) (h1 : ¬t.val % 4 = 3) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point with 0 < k < 3: over what the point before left. -/
theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 3: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator (like every other scoped buffer) is at anything; later it
    is at what the point before left in it, the other scoped buffers and the generator register at something. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ scRest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ scRest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ scRest0 c) ∗ (∃ r, prngReg c r)) := by
  cases n with
  | zero => exact absurd rfl hz
  | succ n => rfl

/-! ## The pipeline's proof data -/

/-- The arrays as the region finds them; after the body at a point each operand's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; k = position mod 4 says which case runs; the
    invariant hands the body the accumulator at what the point before left (at anything at the first point) and takes it
    back at this point's contents; where k < 3 the output's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry invariant back: the accumulator's contents are forgotten. -/
theorem hout0 (c : Dev nD) : (dat0 V c).Φ (Fin.last cfg0.N) ⊢ Pipeline.ΦA spec0 c := by
  have hN : cfg0.N = 64 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, Hrest⟩, Hg⟩
  isplitl [HS0 Hrest]
  · isplitl [HS0]
    · iexists _; iexact HS0
    iexact Hrest
  iexact Hg

end Cert.Kernel.Frm

end
-- ==== Proof.Bits.R1Base.lean ====
/-
  The second matrix product, w1 = tmp · V, as a pipeline over the grid (i, j, k) ∈ 4 × 4 × 4 of 1024 × 1024 blocks:
  what this file fixes is independent of the arithmetic — the block of each operand at a grid point, that an
  operand's staging buffer holds its block whenever the body runs, the two branch conditions of the body in
  closed form (k = 0: the accumulator is reset; k = 3: the accumulator is written out), and where the output
  window is idle (every point with k < 3).
-/
import proofs.«105784_j76063870812747_1_alg».proof.Proof.Gen.Kernel.Launch
import proofs.«105784_j76063870812747_1_alg».proof.Proof.Gen.Kernel.Skeleton
import proofs.«105784_j76063870812747_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is at this parameter
variable (V : (c : Dev nD) → (b : Ref sig .tc) → Buf (Elt F) ((c : Thread nD τ).loc b))

/-! ## The operands' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over the entry contents
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "k = 0", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of 4 (k is the fastest coordinate). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", as the body computes it. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k < 3 the output window is idle, and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 the output window is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own, carried from one grid point to the next. -/
abbrev scM1 : Memref sig .tc .vmem S1024x1024 .f32 := Memref.whole cc1_scratch0
/-- One staging buffer of the output window, and the accumulator, as views through which contents are stated. -/
abbrev VO1 : View sig .tc .vmem S1024x1024 .bf16 := (Memref.whole cc1_stg2_0 : Memref sig .tc .vmem S1024x1024 .bf16).view
abbrev VS1 : View sig .tc .vmem S1024x1024 .f32 := scM1.view

/-- Every scoped buffer of the core that is neither a staging buffer of this call nor its accumulator — the other
    calls' staging buffers and accumulators —, each whole at some contents: it rides through the region unopened. -/
abbrev scRest1 (c : Dev nD) : sProp 𝕄 :=
  Pipeline.scopedRestBut (Ix := Unit) (Name := ℕ) (U := UR sig nD τ) (Lvl := ℕ) (Val := Elt F) spec1 c [cc1_scratch0]

/-- The invariant the region is entered with: the accumulator owned at some contents, the other scoped buffers, and
    the generator register at some state. -/
theorem PhiA1_eq (c : Dev nD) :
    (Pipeline.ΦA spec1 c : sProp 𝕄)
      = iprop(iprop((∃ d, owns (c : Thread nD τ) scM1 fullShare d) ∗ scRest1 c) ∗ (∃ r, prngReg c r)) := by
  unfold Pipeline.ΦA scRest1
  rw [Pipeline.scopedRest_split_of_list spec1 c [cc1_scratch0] (by decide) (by decide)]
  simp only [scM1, owns_whole, bigSepL]
  try rfl

end Cert.Kernel.Frm

end
-- ==== Proof.Bits.R1RunA.lean ====
/-
  The body at a grid point with k = 0 (and k ≠ 3): the accumulator, whatever it held, is reset to zero and the first
  partial product is added to it; the output block is not touched. What the stores leave in the accumulator is found
  by running the body; the pieces written are the witness.
-/
import proofs.«105784_j76063870812747_1_alg».proof.Proof.Bits.R1Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.Bits.R1RunB.lean ====
/-
  The body at a grid point with 0 < k < 3: the next partial product is added to the accumulator the point before
  left; the output block is not touched.
-/
import proofs.«105784_j76063870812747_1_alg».proof.Proof.Bits.R1RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.Bits.R1RunC.lean ====
/-
  The body at a grid point with k = 3: the last partial product is added to the accumulator, and the accumulator,
  narrowed to bf16, is stored whole into the output block.
-/
import proofs.«105784_j76063870812747_1_alg».proof.Proof.Bits.R1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.Bits.R1Data.lean ====
/-
  The second matrix product, w1 = tmp · V, point by point. At a grid point (i, j, k) the accumulator ends at
  (k = 0 ? 0 : what the point before left) + the product of the two operand blocks; at k = 3 the output block ends at
  that accumulator narrowed to bf16, and at k < 3 the output block is idle. This file names those contents for every
  point (`outsAt1`), states the invariant that carries the accumulator from a point to the next, gives the
  pipeline's proof data over them and proves the body's obligation at every point from the three runs of the body.
-/
import proofs.«105784_j76063870812747_1_alg».proof.Proof.Bits.R1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: the stores into the accumulator cover it (one of them is the whole block). -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) (y : S1024x1024.Idx) :
    ∃ pc ∈ (kernelRun1_A c i arg3 harg3 arg4 harg4 arg5 harg5 arg6 harg6 hc0 hc1 x0 x1).1, y ∈ pc.1.set :=
  View.cover_of_wholeMem (kernelRun1_A c i arg3 harg3 arg4 harg4 arg5 harg5 arg6 harg6 hc0 hc1 x0 x1).1 (by sl_whole_mem) y

/-- k = 0: what the accumulator holds afterwards. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).1)

/-- 0 < k < 3: the store into the accumulator covers it. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).1, y ∈ pc.1.set :=
  View.cover_of_wholeMem (kernelRun1_B c i arg3 harg3 arg4 harg4 arg5 harg5 arg6 harg6 hc0 hc1 x0 x1 xs0).1 (by sl_whole_mem) y

/-- 0 < k < 3: what the accumulator holds afterwards. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs0).1)

/-- k = 3: the store into the output block covers it. -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_wholeMem (kernelRun1_C c i arg3 harg3 arg4 harg4 arg5 harg5 arg6 harg6 hc0 hc1 x0 x1 xs0).1 (by sl_whole_mem) y

/-- k = 3: what the output block holds afterwards. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .bf16 :=
  VO1.read (Elt F) (VO1.writes (Elt F) VO1.junk (kernelRun1_C c i arg3 harg3 arg4 harg4 arg5 harg5 arg6 harg6 hc0 hc1 x0 x1 xs0).1)

/-- k = 3: the store into the accumulator covers it. -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_wholeMem (kernelRun1_C c i arg3 harg3 arg4 harg4 arg5 harg5 arg6 harg6 hc0 hc1 x0 x1 xs0).2.1 (by sl_whole_mem) y

/-- k = 3: what the accumulator holds afterwards. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs0).2.1)

/-! ## Point by point -/

/-- An output block nobody reads: where k < 3 the window is idle, neither written back nor read at the next point. -/
def idleOut1 : Vec F S1024x1024 .bf16 := VO1.read (Elt F) VO1.junk

/-- What the output's staging buffer and the accumulator hold after the body at position `n`: by the case of
    k = n mod 4, the accumulator of the point before fed to the cases with k > 0. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point with k = 0. -/
theorem outsAt1_A (c : Dev nD) (t : Fin cfg1.N) (h0 : t.val % 4 = 0) (h1 : ¬t.val % 4 = 3) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point with 0 < k < 3: over what the point before left. -/
theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 3: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator (like every other scoped buffer) is at anything; later it
    is at what the point before left in it, the other scoped buffers and the generator register at something. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ scRest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ scRest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ scRest1 c) ∗ (∃ r, prngReg c r)) := by
  cases n with
  | zero => exact absurd rfl hz
  | succ n => rfl

/-! ## The pipeline's proof data -/

/-- The arrays as the region finds them; after the body at a point each operand's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; k = position mod 4 says which case runs; the
    invariant hands the body the accumulator at what the point before left (at anything at the first point) and takes it
    back at this point's contents; where k < 3 the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the entry invariant back: the accumulator's contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, Hrest⟩, Hg⟩
  isplitl [HS0 Hrest]
  · isplitl [HS0]
    · iexists _; iexact HS0
    iexact Hrest
  iexact Hg

end Cert.Kernel.Frm

end
-- ==== Proof.Bits.R2Base.lean ====
/-
  The third matrix product with its bias, out = xn · w1ᵀ + b, as a pipeline over the grid (i, j, k) ∈ 16 × 4 × 4:
  the left operand in 512 × 1024 blocks (i, k), the right operand in 1024 × 1024 blocks (j, k), the bias row in
  1 × 1024 blocks (j) and the output in 512 × 1024 blocks (i, j). What this file fixes is independent of the
  arithmetic — the block of each operand at a grid point, that an operand's staging buffer holds its block whenever
  the body runs (for the bias row too, although its block moves only when j does: a buffer that was not refilled
  still holds the block of the point before, which is this point's), the two branch conditions of the body in closed
  form (k = 0: the accumulator is reset; k = 3: the accumulator plus the bias row is written out), and where the
  output window is idle (every point with k < 3).
-/
import proofs.«105784_j76063870812747_1_alg».proof.Proof.Gen.Kernel.Launch
import proofs.«105784_j76063870812747_1_alg».proof.Proof.Gen.Kernel.Skeleton
import proofs.«105784_j76063870812747_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is at this parameter
variable (V : (c : Dev nD) → (b : Ref sig .tc) → Buf (Elt F) ((c : Thread nD τ).loc b))

/-! ## The operands' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data over the entry contents
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row: its block index is j alone, so the buffer is refilled only where k = 0, and at the
    other points it still holds the block the point before had — the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "k = 0", as the body computes it from the grid coordinates. -/
abbrev cond2_0 (i : grid2.Coords) : Prop := (Scalar.cmpi .ne (Scalar.extui (Scalar.cmpi .eq (BitVec.ofNat 32 (i 2).val) 0#32)) 0#32) = 1#1
/-- It holds exactly at the points whose position is a multiple of 4 (k is the fastest coordinate). -/
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3", as the body computes it. -/
abbrev cond2_1 (i : grid2.Coords) : Prop := k2_cond2 i = 1#1
/-- It holds exactly at the positions ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k < 3 the output window is idle, and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where k = 3 the output window is live. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from one grid point to the next. -/
abbrev scM2 : Memref sig .tc .vmem S512x1024 .f32 := Memref.whole cc2_scratch0
/-- One staging buffer of the output window, and the accumulator, as views through which contents are stated. -/
abbrev VO2 : View sig .tc .vmem S512x1024 .f32 := (Memref.whole cc2_stg3_0 : Memref sig .tc .vmem S512x1024 .f32).view
abbrev VS2 : View sig .tc .vmem S512x1024 .f32 := scM2.view

/-- Every scoped buffer of the core that is neither a staging buffer of this call nor its accumulator — the other
    calls' staging buffers and accumulators —, each whole at some contents: it rides through the region unopened. -/
abbrev scRest2 (c : Dev nD) : sProp 𝕄 :=
  Pipeline.scopedRestBut (Ix := Unit) (Name := ℕ) (U := UR sig nD τ) (Lvl := ℕ) (Val := Elt F) spec2 c [cc2_scratch0]

/-- The invariant the region is entered with: the accumulator owned at some contents, the other scoped buffers, and
    the generator register at some state. -/
theorem PhiA2_eq (c : Dev nD) :
    (Pipeline.ΦA spec2 c : sProp 𝕄)
      = iprop(iprop((∃ d, owns (c : Thread nD τ) scM2 fullShare d) ∗ scRest2 c) ∗ (∃ r, prngReg c r)) := by
  unfold Pipeline.ΦA scRest2
  rw [Pipeline.scopedRest_split_of_list spec2 c [cc2_scratch0] (by decide) (by decide)]
  simp only [scM2, owns_whole, bigSepL]
  try rfl

end Cert.Kernel.Frm

end
-- ==== Proof.Bits.R2RunA.lean ====
/-
  The body at a grid point with k = 0 (and k ≠ 3): the accumulator, whatever it held, is reset to zero and the first
  partial product is added to it; the bias row is not read and the output block is not touched. What the stores leave
  in the accumulator is found by running the body; the pieces written are the witness.
-/
import proofs.«105784_j76063870812747_1_alg».proof.Proof.Bits.R2Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) :
    { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.Bits.R2RunB.lean ====
/-
  The body at a grid point with 0 < k < 3: the next partial product is added to the accumulator the point before
  left; the bias row is not read and the output block is not touched.
-/
import proofs.«105784_j76063870812747_1_alg».proof.Proof.Bits.R2RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) :
    { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.Bits.R2RunC.lean ====
/-
  The body at a grid point with k = 3: the last partial product is added to the accumulator, and the accumulator plus
  the bias row (the row repeated down the 512 rows of the block) is stored whole into the output block. The output
  block is read once before it is stored, and what is read is used by nothing: the block may hold anything.
-/
import proofs.«105784_j76063870812747_1_alg».proof.Proof.Bits.R2RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frm

end
-- ==== Proof.Bits.R2Data.lean ====
/-
  The third matrix product with its bias, out = xn · w1ᵀ + b, point by point. At a grid point (i, j, k) the
  accumulator ends at (k = 0 ? 0 : what the point before left) + the product of the two operand blocks; at k = 3 the
  output block ends at that accumulator plus the bias row's block repeated down the rows, and at k < 3 the output
  block is idle. This file names those contents for every point (`outsAt2`), states the invariant that carries the
  accumulator from a point to the next, gives the pipeline's proof data over them and proves the body's obligation at
  every point from the three runs of the body.
-/
import proofs.«105784_j76063870812747_1_alg».proof.Proof.Bits.R2RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: the stores into the accumulator cover it (one of them is the whole block). -/
theorem scover2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) (y : S512x1024.Idx) :
    ∃ pc ∈ (kernelRun2_A c i arg3 harg3 arg4 harg4 arg5 harg5 arg6 harg6 arg7 harg7 hc0 hc1 x0 x1 x2).1, y ∈ pc.1.set :=
  View.cover_of_wholeMem (kernelRun2_A c i arg3 harg3 arg4 harg4 arg5 harg5 arg6 harg6 arg7 harg7 hc0 hc1 x0 x1 x2).1 (by sl_whole_mem) y

/-- k = 0: what the accumulator holds afterwards. -/
def sout2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) : Vec F S512x1024 .f32 :=
  VS2.read (Elt F) (VS2.writes (Elt F) VS2.junk (kernelRun2_A c i arg3 harg3 arg4 harg4 arg5 harg5 arg6 harg6 arg7 harg7 hc0 hc1 x0 x1 x2).1)

/-- 0 < k < 3: the store into the accumulator covers it. -/
theorem scover2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).1, y ∈ pc.1.set :=
  View.cover_of_wholeMem (kernelRun2_B c i arg3 harg3 arg4 harg4 arg5 harg5 arg6 harg6 arg7 harg7 hc0 hc1 x0 x1 x2 xs0).1 (by sl_whole_mem) y

/-- 0 < k < 3: what the accumulator holds afterwards. -/
def sout2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) : Vec F S512x1024 .f32 :=
  VS2.read (Elt F) (VS2.writes (Elt F) VS2.junk (kernelRun2_B c i arg3 harg3 arg4 harg4 arg5 harg5 arg6 harg6 arg7 harg7 hc0 hc1 x0 x1 x2 xs0).1)

/-- k = 3: the store into the output block covers it. -/
theorem cover2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).1, y ∈ pc.1.set :=
  View.cover_of_wholeMem (kernelRun2_C c i arg3 harg3 arg4 harg4 arg5 harg5 arg6 harg6 arg7 harg7 hc0 hc1 x0 x1 x2 xs0).1 (by sl_whole_mem) y

/-- k = 3: what the output block holds afterwards. -/
def out2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) : Vec F S512x1024 .f32 :=
  VO2.read (Elt F) (VO2.writes (Elt F) VO2.junk (kernelRun2_C c i arg3 harg3 arg4 harg4 arg5 harg5 arg6 harg6 arg7 harg7 hc0 hc1 x0 x1 x2 xs0).1)

/-- k = 3: the store into the accumulator covers it. -/
theorem scover2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_wholeMem (kernelRun2_C c i arg3 harg3 arg4 harg4 arg5 harg5 arg6 harg6 arg7 harg7 hc0 hc1 x0 x1 x2 xs0).2.1 (by sl_whole_mem) y

/-- k = 3: what the accumulator holds afterwards. -/
def sout2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) : Vec F S512x1024 .f32 :=
  VS2.read (Elt F) (VS2.writes (Elt F) VS2.junk (kernelRun2_C c i arg3 harg3 arg4 harg4 arg5 harg5 arg6 harg6 arg7 harg7 hc0 hc1 x0 x1 x2 xs0).2.1)

/-! ## Point by point -/

/-- An output block nobody reads: where k < 3 the window is idle, neither written back nor read at the next point. -/
def idleOut2 : Vec F S512x1024 .f32 := VO2.read (Elt F) VO2.junk

/-- What the output's staging buffer and the accumulator hold after the body at position `n`: by the case of
    k = n mod 4, the accumulator of the point before fed to the cases with k > 0. -/
def outsAt2 (c : Dev nD) : (n : ℕ) → n < cfg2.N → Vec F S512x1024 .f32 × Vec F S512x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point with k = 0. -/
theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point with 0 < k < 3: over what the point before left. -/
theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 3: over what the point before left. -/
theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator (like every other scoped buffer) is at anything; later it
    is at what the point before left in it, the other scoped buffers and the generator register at something. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ scRest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ scRest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ scRest2 c) ∗ (∃ r, prngReg c r)) := by
  cases n with
  | zero => exact absurd rfl hz
  | succ n => rfl

/-! ## The pipeline's proof data -/

/-- The arrays as the region finds them; after the body at a point each operand's buffer (the bias row's among them)
    at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the operands' buffers, the bias row's among them, hold their blocks; k = position mod 4
    says which case runs; the invariant hands the body the accumulator at what the point before left (at anything at
    the first point) and takes it back at this point's contents; where k < 3 the output's buffer is handed back
    untouched, and the bias row's buffer is handed back untouched everywhere. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the accumulator's contents are forgotten. -/
theorem hout2 (c : Dev nD) : (dat2 V c).Φ (Fin.last cfg2.N) ⊢ Pipeline.ΦA spec2 c := by
  have hN : cfg2.N = 256 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, Hrest⟩, Hg⟩
  isplitl [HS0 Hrest]
  · isplitl [HS0]
    · iexists _; iexact HS0
    iexact Hrest
  iexact Hg

end Cert.Kernel.Frm

end
-- ==== Proof.Bits.Run.lean ====
/-
  The whole program as a run: a stretch of host operations (the dequantisation, the rescaling of the input, the
  reshapes), the three kernel calls, and the closing reshape. This file follows the buffers' contents through those
  five items — a host stretch rewrites what its operations write, a kernel call leaves its output array at what its
  write-backs leave and everything else alone — and proves that every weakly fair execution terminates with every
  unscoped buffer at the contents after the last item. The frame claim (the seven argument arrays end as launched: no
  item writes one) and the result's value are both read off that.
-/
import proofs.«105784_j76063870812747_1_alg».proof.Proof.Bits.R0Data
import proofs.«105784_j76063870812747_1_alg».proof.Proof.Bits.R1Data
import proofs.«105784_j76063870812747_1_alg».proof.Proof.Bits.R2Data
import proofs.«105784_j76063870812747_1_alg».proof.Proof.Gen.Kernel.Regions
import Idealize.ShloMosaic.Lib.Pipeline.RegionsLoop
import Idealize.ShloMosaic.Lib.Pipeline.FrameSuffix
import Idealize.ShloMosaic.Lib.Pipeline.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch before the kernel calls. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the first kernel call: its windows' arrays at what the pipeline leaves (the operands as entered, the output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel call: its windows' arrays at what the pipeline leaves (the operands as entered, the output's
    write-backs folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third kernel call: its windows' arrays at what the pipeline leaves (the operands as entered, the output's
    write-backs folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the closing reshape. -/
abbrev W5 : Dev nD → Valuation τ sig (Elt F) := fun c => StableHlo.after hostOps3 (W4 m c)

/-! ### The arguments end as launched: no host operation writes one and no kernel call's window is one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps3 _ hostOps3_writes (r := main_arg0) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps3 _ hostOps3_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps3 _ hostOps3_writes (r := main_arg2) (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps3 _ hostOps3_writes (r := main_arg3) (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps3 _ hostOps3_writes (r := main_arg4) (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps3 _ hostOps3_writes (r := main_arg5) (by decide)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps3 _ hostOps3_writes (r := main_arg6) (by decide)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`. -/
abbrev Tₙ (c : Dev nD) : sProp 𝕄 := iprop(StableHlo.held (c : Thread nD τ) (Pipeline.ucRefs τ sig) (W5 m c) ∗ ∃ r, prngReg c r)

/-! ## The kernel calls as segments -/

set_option backward.isDefEq.respectTransparency.types false in
/-- The first kernel call over the thread state: entered from every unscoped buffer at the contents before it, left
    at the contents after it. Its windows' arrays are split out of the unscoped buffers and put back at what the
    write-backs leave; the generator register goes into the region's invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel call over the thread state: entered from every unscoped buffer at the contents before it, left
    at the contents after it. Its windows' arrays are split out of the unscoped buffers and put back at what the
    write-backs leave; the generator register goes into the region's invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel call over the thread state: entered from every unscoped buffer at the contents before it, left
    at the contents after it. Its windows' arrays are split out of the unscoped buffers and put back at what the
    write-backs leave; the generator register goes into the region's invariant and comes back; nothing is owed; the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine BIBase.Entails.trans (hout2 (V3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer at the contents after the last item. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_main m ρ)

end Cert.Kernel.Frm

end
-- ==== Proof.R0Base.lean ====
/-
  The first matrix product, tmp = Uᵀ · w0, as a pipeline over the grid (i, j, k) ∈ 4 × 4 × 4 of 1024 × 1024 blocks:
  what this file fixes is independent of the arithmetic — the block of each operand at a grid point, that an
  operand's staging buffer holds its block whenever the body runs, the two branch conditions of the body in
  closed form (k = 0: the accumulator is reset; k = 3: the accumulator is written out), and where the output
  window is idle (every point with k < 3).
-/
import proofs.«105784_j76063870812747_1_alg».proof.Proof.Gen.KernelIdeal.Launch
import proofs.«105784_j76063870812747_1_alg».proof.Proof.Gen.KernelIdeal.Skeleton
import proofs.«105784_j76063870812747_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is at this parameter
variable (V : (c : Dev nD) → (b : Ref sig .tc) → Buf (Elt F) ((c : Thread nD τ).loc b))

/-! ## The operands' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over the entry contents
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "k = 0", as the body computes it from the grid coordinates. -/
abbrev cond0_0 (i : grid0.Coords) : Prop := (Scalar.cmpi .ne (Scalar.extui (Scalar.cmpi .eq (BitVec.ofNat 32 (i 2).val) 0#32)) 0#32) = 1#1
/-- It holds exactly at the points whose position is a multiple of 4 (k is the fastest coordinate). -/
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", as the body computes it. -/
abbrev cond0_1 (i : grid0.Coords) : Prop := k0_cond2 i = 1#1
/-- It holds exactly at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where k < 3 the output window is idle, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where k = 3 the output window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0 : Memref sig .tc .vmem S1024x1024 .f32 := Memref.whole cc0_scratch0
/-- One staging buffer of the output window, and the accumulator, as views through which contents are stated. -/
abbrev VO0 : View sig .tc .vmem S1024x1024 .bf16 := (Memref.whole cc0_stg2_0 : Memref sig .tc .vmem S1024x1024 .bf16).view
abbrev VS0 : View sig .tc .vmem S1024x1024 .f32 := scM0.view

/-- Every scoped buffer of the core that is neither a staging buffer of this call nor its accumulator — the other
    calls' staging buffers and accumulators —, each whole at some contents: it rides through the region unopened. -/
abbrev scRest0 (c : Dev nD) : sProp 𝕄 :=
  Pipeline.scopedRestBut (Ix := Unit) (Name := ℕ) (U := UR sig nD τ) (Lvl := ℕ) (Val := Elt F) spec0 c [cc0_scratch0]

/-- The invariant the region is entered with: the accumulator owned at some contents, the other scoped buffers, and
    the generator register at some state. -/
theorem PhiA0_eq (c : Dev nD) :
    (Pipeline.ΦA spec0 c : sProp 𝕄)
      = iprop(iprop((∃ d, owns (c : Thread nD τ) scM0 fullShare d) ∗ scRest0 c) ∗ (∃ r, prngReg c r)) := by
  unfold Pipeline.ΦA scRest0
  rw [Pipeline.scopedRest_split_of_list spec0 c [cc0_scratch0] (by decide) (by decide)]
  simp only [scM0, owns_whole, bigSepL]
  try rfl

end Cert.KernelIdeal.Frm

end
-- ==== Proof.R0RunA.lean ====
/-
  The body at a grid point with k = 0 (and k ≠ 3): the accumulator, whatever it held, is reset to zero and the first
  partial product is added to it; the output block is not touched. What the stores leave in the accumulator is found
  by running the body; the pieces written are the witness.
-/
import proofs.«105784_j76063870812747_1_alg».proof.Proof.R0Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.R0RunB.lean ====
/-
  The body at a grid point with 0 < k < 3: the next partial product is added to the accumulator the point before
  left; the output block is not touched.
-/
import proofs.«105784_j76063870812747_1_alg».proof.Proof.R0RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.R0RunC.lean ====
/-
  The body at a grid point with k = 3: the last partial product is added to the accumulator, and the accumulator,
  narrowed to bf16, is stored whole into the output block.
-/
import proofs.«105784_j76063870812747_1_alg».proof.Proof.R0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.R0Data.lean ====
/-
  The first matrix product, tmp = Uᵀ · w0, point by point. At a grid point (i, j, k) the accumulator ends at
  (k = 0 ? 0 : what the point before left) + the product of the two operand blocks; at k = 3 the output block ends at
  that accumulator narrowed to bf16, and at k < 3 the output block is idle. This file names those contents for every
  point (`outsAt0`), states the invariant that carries the accumulator from a point to the next, gives the
  pipeline's proof data over them and proves the body's obligation at every point from the three runs of the body.
-/
import proofs.«105784_j76063870812747_1_alg».proof.Proof.R0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: the stores into the accumulator cover it (one of them is the whole block). -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).1, y ∈ pc.1.set :=
  View.cover_of_wholeMem (kernelRun0_A c i arg3 harg3 arg4 harg4 arg5 harg5 arg6 harg6 hc0 hc1 x0 x1).1 (by sl_whole_mem) y

/-- k = 0: what the accumulator holds afterwards. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0.read (Elt F) (VS0.writes (Elt F) VS0.junk (kernelRun0_A c i arg3 harg3 arg4 harg4 arg5 harg5 arg6 harg6 hc0 hc1 x0 x1).1)

/-- 0 < k < 3: the store into the accumulator covers it. -/
theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_wholeMem (kernelRun0_B c i arg3 harg3 arg4 harg4 arg5 harg5 arg6 harg6 hc0 hc1 x0 x1 xs0).1 (by sl_whole_mem) y

/-- 0 < k < 3: what the accumulator holds afterwards. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs0).1)

/-- k = 3: the store into the output block covers it. -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_wholeMem (kernelRun0_C c i arg3 harg3 arg4 harg4 arg5 harg5 arg6 harg6 hc0 hc1 x0 x1 xs0).1 (by sl_whole_mem) y

/-- k = 3: what the output block holds afterwards. -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .bf16 :=
  VO0.read (Elt F) (VO0.writes (Elt F) VO0.junk (kernelRun0_C c i arg3 harg3 arg4 harg4 arg5 harg5 arg6 harg6 hc0 hc1 x0 x1 xs0).1)

/-- k = 3: the store into the accumulator covers it. -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_wholeMem (kernelRun0_C c i arg3 harg3 arg4 harg4 arg5 harg5 arg6 harg6 hc0 hc1 x0 x1 xs0).2.1 (by sl_whole_mem) y

/-- k = 3: what the accumulator holds afterwards. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs0).2.1)

/-! ## Point by point -/

/-- An output block nobody reads: where k < 3 the window is idle, neither written back nor read at the next point. -/
def idleOut0 : Vec F S1024x1024 .bf16 := VO0.read (Elt F) VO0.junk

/-- What the output's staging buffer and the accumulator hold after the body at position `n`: by the case of
    k = n mod 4, the accumulator of the point before fed to the cases with k > 0. -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point with k = 0. -/
theorem outsAt0_A (c : Dev nD) (t : Fin cfg0.N) (h0 : t.val % 4 = 0) (h1 : ¬t.val % 4 = 3) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point with 0 < k < 3: over what the point before left. -/
theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 3: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator (like every other scoped buffer) is at anything; later it
    is at what the point before left in it, the other scoped buffers and the generator register at something. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ scRest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ scRest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ scRest0 c) ∗ (∃ r, prngReg c r)) := by
  cases n with
  | zero => exact absurd rfl hz
  | succ n => rfl

/-! ## The pipeline's proof data -/

/-- The arrays as the region finds them; after the body at a point each operand's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; k = position mod 4 says which case runs; the
    invariant hands the body the accumulator at what the point before left (at anything at the first point) and takes it
    back at this point's contents; where k < 3 the output's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry invariant back: the accumulator's contents are forgotten. -/
theorem hout0 (c : Dev nD) : (dat0 V c).Φ (Fin.last cfg0.N) ⊢ Pipeline.ΦA spec0 c := by
  have hN : cfg0.N = 64 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, Hrest⟩, Hg⟩
  isplitl [HS0 Hrest]
  · isplitl [HS0]
    · iexists _; iexact HS0
    iexact Hrest
  iexact Hg

end Cert.KernelIdeal.Frm

end
-- ==== Proof.R1Base.lean ====
/-
  The second matrix product, w1 = tmp · V, as a pipeline over the grid (i, j, k) ∈ 4 × 4 × 4 of 1024 × 1024 blocks:
  what this file fixes is independent of the arithmetic — the block of each operand at a grid point, that an
  operand's staging buffer holds its block whenever the body runs, the two branch conditions of the body in
  closed form (k = 0: the accumulator is reset; k = 3: the accumulator is written out), and where the output
  window is idle (every point with k < 3).
-/
import proofs.«105784_j76063870812747_1_alg».proof.Proof.Gen.KernelIdeal.Launch
import proofs.«105784_j76063870812747_1_alg».proof.Proof.Gen.KernelIdeal.Skeleton
import proofs.«105784_j76063870812747_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is at this parameter
variable (V : (c : Dev nD) → (b : Ref sig .tc) → Buf (Elt F) ((c : Thread nD τ).loc b))

/-! ## The operands' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over the entry contents
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "k = 0", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of 4 (k is the fastest coordinate). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", as the body computes it. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k < 3 the output window is idle, and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 the output window is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own, carried from one grid point to the next. -/
abbrev scM1 : Memref sig .tc .vmem S1024x1024 .f32 := Memref.whole cc1_scratch0
/-- One staging buffer of the output window, and the accumulator, as views through which contents are stated. -/
abbrev VO1 : View sig .tc .vmem S1024x1024 .bf16 := (Memref.whole cc1_stg2_0 : Memref sig .tc .vmem S1024x1024 .bf16).view
abbrev VS1 : View sig .tc .vmem S1024x1024 .f32 := scM1.view

/-- Every scoped buffer of the core that is neither a staging buffer of this call nor its accumulator — the other
    calls' staging buffers and accumulators —, each whole at some contents: it rides through the region unopened. -/
abbrev scRest1 (c : Dev nD) : sProp 𝕄 :=
  Pipeline.scopedRestBut (Ix := Unit) (Name := ℕ) (U := UR sig nD τ) (Lvl := ℕ) (Val := Elt F) spec1 c [cc1_scratch0]

/-- The invariant the region is entered with: the accumulator owned at some contents, the other scoped buffers, and
    the generator register at some state. -/
theorem PhiA1_eq (c : Dev nD) :
    (Pipeline.ΦA spec1 c : sProp 𝕄)
      = iprop(iprop((∃ d, owns (c : Thread nD τ) scM1 fullShare d) ∗ scRest1 c) ∗ (∃ r, prngReg c r)) := by
  unfold Pipeline.ΦA scRest1
  rw [Pipeline.scopedRest_split_of_list spec1 c [cc1_scratch0] (by decide) (by decide)]
  simp only [scM1, owns_whole, bigSepL]
  try rfl

end Cert.KernelIdeal.Frm

end
-- ==== Proof.R1RunA.lean ====
/-
  The body at a grid point with k = 0 (and k ≠ 3): the accumulator, whatever it held, is reset to zero and the first
  partial product is added to it; the output block is not touched. What the stores leave in the accumulator is found
  by running the body; the pieces written are the witness.
-/
import proofs.«105784_j76063870812747_1_alg».proof.Proof.R1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.R1RunB.lean ====
/-
  The body at a grid point with 0 < k < 3: the next partial product is added to the accumulator the point before
  left; the output block is not touched.
-/
import proofs.«105784_j76063870812747_1_alg».proof.Proof.R1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.R1RunC.lean ====
/-
  The body at a grid point with k = 3: the last partial product is added to the accumulator, and the accumulator,
  narrowed to bf16, is stored whole into the output block.
-/
import proofs.«105784_j76063870812747_1_alg».proof.Proof.R1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.R1Data.lean ====
/-
  The second matrix product, w1 = tmp · V, point by point. At a grid point (i, j, k) the accumulator ends at
  (k = 0 ? 0 : what the point before left) + the product of the two operand blocks; at k = 3 the output block ends at
  that accumulator narrowed to bf16, and at k < 3 the output block is idle. This file names those contents for every
  point (`outsAt1`), states the invariant that carries the accumulator from a point to the next, gives the
  pipeline's proof data over them and proves the body's obligation at every point from the three runs of the body.
-/
import proofs.«105784_j76063870812747_1_alg».proof.Proof.R1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: the stores into the accumulator cover it (one of them is the whole block). -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) (y : S1024x1024.Idx) :
    ∃ pc ∈ (kernelRun1_A c i arg3 harg3 arg4 harg4 arg5 harg5 arg6 harg6 hc0 hc1 x0 x1).1, y ∈ pc.1.set :=
  View.cover_of_wholeMem (kernelRun1_A c i arg3 harg3 arg4 harg4 arg5 harg5 arg6 harg6 hc0 hc1 x0 x1).1 (by sl_whole_mem) y

/-- k = 0: what the accumulator holds afterwards. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).1)

/-- 0 < k < 3: the store into the accumulator covers it. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).1, y ∈ pc.1.set :=
  View.cover_of_wholeMem (kernelRun1_B c i arg3 harg3 arg4 harg4 arg5 harg5 arg6 harg6 hc0 hc1 x0 x1 xs0).1 (by sl_whole_mem) y

/-- 0 < k < 3: what the accumulator holds afterwards. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs0).1)

/-- k = 3: the store into the output block covers it. -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_wholeMem (kernelRun1_C c i arg3 harg3 arg4 harg4 arg5 harg5 arg6 harg6 hc0 hc1 x0 x1 xs0).1 (by sl_whole_mem) y

/-- k = 3: what the output block holds afterwards. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .bf16 :=
  VO1.read (Elt F) (VO1.writes (Elt F) VO1.junk (kernelRun1_C c i arg3 harg3 arg4 harg4 arg5 harg5 arg6 harg6 hc0 hc1 x0 x1 xs0).1)

/-- k = 3: the store into the accumulator covers it. -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_wholeMem (kernelRun1_C c i arg3 harg3 arg4 harg4 arg5 harg5 arg6 harg6 hc0 hc1 x0 x1 xs0).2.1 (by sl_whole_mem) y

/-- k = 3: what the accumulator holds afterwards. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs0).2.1)

/-! ## Point by point -/

/-- An output block nobody reads: where k < 3 the window is idle, neither written back nor read at the next point. -/
def idleOut1 : Vec F S1024x1024 .bf16 := VO1.read (Elt F) VO1.junk

/-- What the output's staging buffer and the accumulator hold after the body at position `n`: by the case of
    k = n mod 4, the accumulator of the point before fed to the cases with k > 0. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point with k = 0. -/
theorem outsAt1_A (c : Dev nD) (t : Fin cfg1.N) (h0 : t.val % 4 = 0) (h1 : ¬t.val % 4 = 3) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point with 0 < k < 3: over what the point before left. -/
theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 3: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator (like every other scoped buffer) is at anything; later it
    is at what the point before left in it, the other scoped buffers and the generator register at something. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ scRest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ scRest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ scRest1 c) ∗ (∃ r, prngReg c r)) := by
  cases n with
  | zero => exact absurd rfl hz
  | succ n => rfl

/-! ## The pipeline's proof data -/

/-- The arrays as the region finds them; after the body at a point each operand's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; k = position mod 4 says which case runs; the
    invariant hands the body the accumulator at what the point before left (at anything at the first point) and takes it
    back at this point's contents; where k < 3 the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the entry invariant back: the accumulator's contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, Hrest⟩, Hg⟩
  isplitl [HS0 Hrest]
  · isplitl [HS0]
    · iexists _; iexact HS0
    iexact Hrest
  iexact Hg

end Cert.KernelIdeal.Frm

end
-- ==== Proof.R2Base.lean ====
/-
  The third matrix product with its bias, out = xn · w1ᵀ + b, as a pipeline over the grid (i, j, k) ∈ 16 × 4 × 4:
  the left operand in 512 × 1024 blocks (i, k), the right operand in 1024 × 1024 blocks (j, k), the bias row in
  1 × 1024 blocks (j) and the output in 512 × 1024 blocks (i, j). What this file fixes is independent of the
  arithmetic — the block of each operand at a grid point, that an operand's staging buffer holds its block whenever
  the body runs (for the bias row too, although its block moves only when j does: a buffer that was not refilled
  still holds the block of the point before, which is this point's), the two branch conditions of the body in closed
  form (k = 0: the accumulator is reset; k = 3: the accumulator plus the bias row is written out), and where the
  output window is idle (every point with k < 3).
-/
import proofs.«105784_j76063870812747_1_alg».proof.Proof.Gen.KernelIdeal.Launch
import proofs.«105784_j76063870812747_1_alg».proof.Proof.Gen.KernelIdeal.Skeleton
import proofs.«105784_j76063870812747_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is at this parameter
variable (V : (c : Dev nD) → (b : Ref sig .tc) → Buf (Elt F) ((c : Thread nD τ).loc b))

/-! ## The operands' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data over the entry contents
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row: its block index is j alone, so the buffer is refilled only where k = 0, and at the
    other points it still holds the block the point before had — the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "k = 0", as the body computes it from the grid coordinates. -/
abbrev cond2_0 (i : grid2.Coords) : Prop := (Scalar.cmpi .ne (Scalar.extui (Scalar.cmpi .eq (BitVec.ofNat 32 (i 2).val) 0#32)) 0#32) = 1#1
/-- It holds exactly at the points whose position is a multiple of 4 (k is the fastest coordinate). -/
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3", as the body computes it. -/
abbrev cond2_1 (i : grid2.Coords) : Prop := k2_cond2 i = 1#1
/-- It holds exactly at the positions ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k < 3 the output window is idle, and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where k = 3 the output window is live. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from one grid point to the next. -/
abbrev scM2 : Memref sig .tc .vmem S512x1024 .f32 := Memref.whole cc2_scratch0
/-- One staging buffer of the output window, and the accumulator, as views through which contents are stated. -/
abbrev VO2 : View sig .tc .vmem S512x1024 .f32 := (Memref.whole cc2_stg3_0 : Memref sig .tc .vmem S512x1024 .f32).view
abbrev VS2 : View sig .tc .vmem S512x1024 .f32 := scM2.view

/-- Every scoped buffer of the core that is neither a staging buffer of this call nor its accumulator — the other
    calls' staging buffers and accumulators —, each whole at some contents: it rides through the region unopened. -/
abbrev scRest2 (c : Dev nD) : sProp 𝕄 :=
  Pipeline.scopedRestBut (Ix := Unit) (Name := ℕ) (U := UR sig nD τ) (Lvl := ℕ) (Val := Elt F) spec2 c [cc2_scratch0]

/-- The invariant the region is entered with: the accumulator owned at some contents, the other scoped buffers, and
    the generator register at some state. -/
theorem PhiA2_eq (c : Dev nD) :
    (Pipeline.ΦA spec2 c : sProp 𝕄)
      = iprop(iprop((∃ d, owns (c : Thread nD τ) scM2 fullShare d) ∗ scRest2 c) ∗ (∃ r, prngReg c r)) := by
  unfold Pipeline.ΦA scRest2
  rw [Pipeline.scopedRest_split_of_list spec2 c [cc2_scratch0] (by decide) (by decide)]
  simp only [scM2, owns_whole, bigSepL]
  try rfl

end Cert.KernelIdeal.Frm

end
-- ==== Proof.R2RunA.lean ====
/-
  The body at a grid point with k = 0 (and k ≠ 3): the accumulator, whatever it held, is reset to zero and the first
  partial product is added to it; the bias row is not read and the output block is not touched. What the stores leave
  in the accumulator is found by running the body; the pieces written are the witness.
-/
import proofs.«105784_j76063870812747_1_alg».proof.Proof.R2Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) :
    { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.R2RunB.lean ====
/-
  The body at a grid point with 0 < k < 3: the next partial product is added to the accumulator the point before
  left; the bias row is not read and the output block is not touched.
-/
import proofs.«105784_j76063870812747_1_alg».proof.Proof.R2RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) :
    { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.R2RunC.lean ====
/-
  The body at a grid point with k = 3: the last partial product is added to the accumulator, and the accumulator plus
  the bias row (the row repeated down the 512 rows of the block) is stored whole into the output block. The output
  block is read once before it is stored, and what is read is used by nothing: the block may hold anything.
-/
import proofs.«105784_j76063870812747_1_alg».proof.Proof.R2RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frm

end
-- ==== Proof.R2Data.lean ====
/-
  The third matrix product with its bias, out = xn · w1ᵀ + b, point by point. At a grid point (i, j, k) the
  accumulator ends at (k = 0 ? 0 : what the point before left) + the product of the two operand blocks; at k = 3 the
  output block ends at that accumulator plus the bias row's block repeated down the rows, and at k < 3 the output
  block is idle. This file names those contents for every point (`outsAt2`), states the invariant that carries the
  accumulator from a point to the next, gives the pipeline's proof data over them and proves the body's obligation at
  every point from the three runs of the body.
-/
import proofs.«105784_j76063870812747_1_alg».proof.Proof.R2RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: the stores into the accumulator cover it (one of them is the whole block). -/
theorem scover2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) (y : S512x1024.Idx) :
    ∃ pc ∈ (kernelRun2_A c i arg3 harg3 arg4 harg4 arg5 harg5 arg6 harg6 arg7 harg7 hc0 hc1 x0 x1 x2).1, y ∈ pc.1.set :=
  View.cover_of_wholeMem (kernelRun2_A c i arg3 harg3 arg4 harg4 arg5 harg5 arg6 harg6 arg7 harg7 hc0 hc1 x0 x1 x2).1 (by sl_whole_mem) y

/-- k = 0: what the accumulator holds afterwards. -/
def sout2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) : Vec F S512x1024 .f32 :=
  VS2.read (Elt F) (VS2.writes (Elt F) VS2.junk (kernelRun2_A c i arg3 harg3 arg4 harg4 arg5 harg5 arg6 harg6 arg7 harg7 hc0 hc1 x0 x1 x2).1)

/-- 0 < k < 3: the store into the accumulator covers it. -/
theorem scover2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).1, y ∈ pc.1.set :=
  View.cover_of_wholeMem (kernelRun2_B c i arg3 harg3 arg4 harg4 arg5 harg5 arg6 harg6 arg7 harg7 hc0 hc1 x0 x1 x2 xs0).1 (by sl_whole_mem) y

/-- 0 < k < 3: what the accumulator holds afterwards. -/
def sout2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) : Vec F S512x1024 .f32 :=
  VS2.read (Elt F) (VS2.writes (Elt F) VS2.junk (kernelRun2_B c i arg3 harg3 arg4 harg4 arg5 harg5 arg6 harg6 arg7 harg7 hc0 hc1 x0 x1 x2 xs0).1)

/-- k = 3: the store into the output block covers it. -/
theorem cover2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).1, y ∈ pc.1.set :=
  View.cover_of_wholeMem (kernelRun2_C c i arg3 harg3 arg4 harg4 arg5 harg5 arg6 harg6 arg7 harg7 hc0 hc1 x0 x1 x2 xs0).1 (by sl_whole_mem) y

/-- k = 3: what the output block holds afterwards. -/
def out2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) : Vec F S512x1024 .f32 :=
  VO2.read (Elt F) (VO2.writes (Elt F) VO2.junk (kernelRun2_C c i arg3 harg3 arg4 harg4 arg5 harg5 arg6 harg6 arg7 harg7 hc0 hc1 x0 x1 x2 xs0).1)

/-- k = 3: the store into the accumulator covers it. -/
theorem scover2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_wholeMem (kernelRun2_C c i arg3 harg3 arg4 harg4 arg5 harg5 arg6 harg6 arg7 harg7 hc0 hc1 x0 x1 x2 xs0).2.1 (by sl_whole_mem) y

/-- k = 3: what the accumulator holds afterwards. -/
def sout2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) : Vec F S512x1024 .f32 :=
  VS2.read (Elt F) (VS2.writes (Elt F) VS2.junk (kernelRun2_C c i arg3 harg3 arg4 harg4 arg5 harg5 arg6 harg6 arg7 harg7 hc0 hc1 x0 x1 x2 xs0).2.1)

/-! ## Point by point -/

/-- An output block nobody reads: where k < 3 the window is idle, neither written back nor read at the next point. -/
def idleOut2 : Vec F S512x1024 .f32 := VO2.read (Elt F) VO2.junk

/-- What the output's staging buffer and the accumulator hold after the body at position `n`: by the case of
    k = n mod 4, the accumulator of the point before fed to the cases with k > 0. -/
def outsAt2 (c : Dev nD) : (n : ℕ) → n < cfg2.N → Vec F S512x1024 .f32 × Vec F S512x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point with k = 0. -/
theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point with 0 < k < 3: over what the point before left. -/
theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 3: over what the point before left. -/
theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the region's entry the accumulator (like every other scoped buffer) is at anything; later it
    is at what the point before left in it, the other scoped buffers and the generator register at something. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ scRest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ scRest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ scRest2 c) ∗ (∃ r, prngReg c r)) := by
  cases n with
  | zero => exact absurd rfl hz
  | succ n => rfl

/-! ## The pipeline's proof data -/

/-- The arrays as the region finds them; after the body at a point each operand's buffer (the bias row's among them)
    at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the operands' buffers, the bias row's among them, hold their blocks; k = position mod 4
    says which case runs; the invariant hands the body the accumulator at what the point before left (at anything at
    the first point) and takes it back at this point's contents; where k < 3 the output's buffer is handed back
    untouched, and the bias row's buffer is handed back untouched everywhere. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the accumulator's contents are forgotten. -/
theorem hout2 (c : Dev nD) : (dat2 V c).Φ (Fin.last cfg2.N) ⊢ Pipeline.ΦA spec2 c := by
  have hN : cfg2.N = 256 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, Hrest⟩, Hg⟩
  isplitl [HS0 Hrest]
  · isplitl [HS0]
    · iexists _; iexact HS0
    iexact Hrest
  iexact Hg

end Cert.KernelIdeal.Frm

end
-- ==== Proof.Run.lean ====
/-
  The whole program as a run: a stretch of host operations (the dequantisation, the rescaling of the input, the
  reshapes), the three kernel calls, and the closing reshape. This file follows the buffers' contents through those
  five items — a host stretch rewrites what its operations write, a kernel call leaves its output array at what its
  write-backs leave and everything else alone — and proves that every weakly fair execution terminates with every
  unscoped buffer at the contents after the last item. The frame claim (the seven argument arrays end as launched: no
  item writes one) and the result's value are both read off that.
-/
import proofs.«105784_j76063870812747_1_alg».proof.Proof.R0Data
import proofs.«105784_j76063870812747_1_alg».proof.Proof.R1Data
import proofs.«105784_j76063870812747_1_alg».proof.Proof.R2Data
import proofs.«105784_j76063870812747_1_alg».proof.Proof.Gen.KernelIdeal.Regions
import Idealize.ShloMosaic.Lib.Pipeline.RegionsLoop
import Idealize.ShloMosaic.Lib.Pipeline.FrameSuffix
import Idealize.ShloMosaic.Lib.Pipeline.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch before the kernel calls. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the first kernel call: its windows' arrays at what the pipeline leaves (the operands as entered, the output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel call: its windows' arrays at what the pipeline leaves (the operands as entered, the output's
    write-backs folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third kernel call: its windows' arrays at what the pipeline leaves (the operands as entered, the output's
    write-backs folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the closing reshape. -/
abbrev W5 : Dev nD → Valuation τ sig (Elt F) := fun c => StableHlo.after hostOps3 (W4 m c)

/-! ### The arguments end as launched: no host operation writes one and no kernel call's window is one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps3 _ hostOps3_writes (r := main_arg0) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps3 _ hostOps3_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps3 _ hostOps3_writes (r := main_arg2) (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps3 _ hostOps3_writes (r := main_arg3) (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps3 _ hostOps3_writes (r := main_arg4) (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps3 _ hostOps3_writes (r := main_arg5) (by decide)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps3 _ hostOps3_writes (r := main_arg6) (by decide)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`. -/
abbrev Tₙ (c : Dev nD) : sProp 𝕄 := iprop(StableHlo.held (c : Thread nD τ) (Pipeline.ucRefs τ sig) (W5 m c) ∗ ∃ r, prngReg c r)

/-! ## The kernel calls as segments -/

set_option backward.isDefEq.respectTransparency.types false in
/-- The first kernel call over the thread state: entered from every unscoped buffer at the contents before it, left
    at the contents after it. Its windows' arrays are split out of the unscoped buffers and put back at what the
    write-backs leave; the generator register goes into the region's invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel call over the thread state: entered from every unscoped buffer at the contents before it, left
    at the contents after it. Its windows' arrays are split out of the unscoped buffers and put back at what the
    write-backs leave; the generator register goes into the region's invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel call over the thread state: entered from every unscoped buffer at the contents before it, left
    at the contents after it. Its windows' arrays are split out of the unscoped buffers and put back at what the
    write-backs leave; the generator register goes into the region's invariant and comes back; nothing is owed; the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine BIBase.Entails.trans (hout2 (V3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer at the contents after the last item. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_main m ρ)

end Cert.KernelIdeal.Frm

end
-- ==== Proof.R0ValuePieces.lean ====
/-
  What each of the three cases of the first matrix product's body leaves, as a term of the block operations:
    k = 0      the accumulator ends at  update (reset block) a b     (the reset is stored, read back, and updated);
    0 < k < 3  the accumulator ends at  update acc a b               over what the point before left in it;
    k = 3      the accumulator ends at  update acc a b, and the output block at that accumulator narrowed.
  Each store writes its whole block, so the last store decides the contents and a load after it reads its payload.
-/
import proofs.«105784_j76063870812747_1_alg».proof.Proof.R0Data
import Idealize.ShloMosaic.Lib.Pipeline.Value
import Idealize.ShloMosaic.Lib.Tactic
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.ShloMosaic.Tactic
open Idealize.SL Idealize.SL.Sem
open Idealize.ShloMosaic.Pipeline (Dat Cfg Window)

variable {F : FTy → Type} [FloatOps F]

theorem hz0 : (![0, 0] : Fin 2 → Nat) = fun _ => 0 := funext fun a => by fin_cases a <;> rfl

/-- k = 0: the reset block is stored, read back, and the first partial product is added to it. -/
theorem soutA_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 x1 : Vec F S1024x1024 .bf16) :
    sout0_A c i arg3 harg3 arg4 harg4 arg5 harg5 arg6 harg6 hc0 hc1 x0 x1 = k0_pay2 k0_pay1 x0 x1 := by
  unfold sout0_A
  rw [View.read_writes_eq_canon _ _ _ (scover0_A c i arg3 harg3 arg4 harg4 arg5 harg5 arg6 harg6 hc0 hc1 x0 x1)]
  unfold kernelRun0_A
  dsimp only
  sl_unfold_words
  rw [View.canon_cons_unit_zero (S := S1024x1024) hz0]
  simp only [View.readAt_eq_ld, harg3.read_unread, harg4.read_unread, View.ld_unit_zero (S := S1024x1024) hz0,
    View.readCov_unit_zero (S := S1024x1024) _ hz0]

/-- 0 < k < 3: the next partial product is added to what the accumulator held. -/
theorem soutB_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 x1 : Vec F S1024x1024 .bf16) (xs0 : Vec F S1024x1024 .f32) :
    sout0_B c i arg3 harg3 arg4 harg4 arg5 harg5 arg6 harg6 hc0 hc1 x0 x1 xs0 = k0_pay2 xs0 x0 x1 := by
  unfold sout0_B
  rw [View.read_writes_eq_canon _ _ _ (scover0_B c i arg3 harg3 arg4 harg4 arg5 harg5 arg6 harg6 hc0 hc1 x0 x1 xs0)]
  unfold kernelRun0_B
  dsimp only
  sl_unfold_words
  rw [View.canon_unit_zero hz0]
  simp only [View.readAt_eq_ld, harg3.read_unread, harg4.read_unread, harg6.read_unread, View.ld_unit_zero (S := S1024x1024) hz0]

/-- k = 3: the accumulator ends at the last partial product added to what it held. -/
theorem soutC_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 : Vec F S1024x1024 .bf16) (xs0 : Vec F S1024x1024 .f32) :
    sout0_C c i arg3 harg3 arg4 harg4 arg5 harg5 arg6 harg6 hc0 hc1 x0 x1 xs0 = k0_pay2 xs0 x0 x1 := by
  unfold sout0_C
  rw [View.read_writes_eq_canon _ _ _ (scover0_C c i arg3 harg3 arg4 harg4 arg5 harg5 arg6 harg6 hc0 hc1 x0 x1 xs0)]
  unfold kernelRun0_C
  dsimp only
  sl_unfold_words
  rw [View.canon_unit_zero hz0]
  simp only [View.readAt_eq_ld, harg3.read_unread, harg4.read_unread, harg6.read_unread, View.ld_unit_zero (S := S1024x1024) hz0]

/-- k = 3: the output block ends at that accumulator, read back and narrowed. -/
theorem outC_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 : Vec F S1024x1024 .bf16) (xs0 : Vec F S1024x1024 .f32) :
    out0_C c i arg3 harg3 arg4 harg4 arg5 harg5 arg6 harg6 hc0 hc1 x0 x1 xs0 = k0_pay3 (k0_pay2 xs0 x0 x1) := by
  unfold out0_C
  rw [View.read_writes_eq_canon _ _ _ (cover0_C c i arg3 harg3 arg4 harg4 arg5 harg5 arg6 harg6 hc0 hc1 x0 x1 xs0)]
  unfold kernelRun0_C
  dsimp only
  sl_unfold_words
  rw [View.canon_unit_zero hz0]
  simp only [View.readAt_eq_ld, harg3.read_unread, harg4.read_unread, harg6.read_unread, View.ld_unit_zero (S := S1024x1024) hz0,
    View.readCov_unit_zero (S := S1024x1024) _ hz0]

end Cert.KernelIdeal.Val

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.R0ValuePay.lean ====
/-
  The three block operations of the first matrix product, read at an index over the extended reals.
    * The reset block is zero everywhere.
    * The update adds to the accumulator, at (p, q), the inner product of column p of the left block with column q
      of the right block: both blocks are contracted over their first coordinate, so the left block enters transposed.
    * Narrowing the accumulator to the output's element type changes nothing: over the extended reals it is the identity.
-/
import proofs.«105784_j76063870812747_1_alg».proof.Proof.Gen.KernelIdeal.Skeleton
import proofs.«105784_j76063870812747_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx
open scoped BigOperators

/-- The reset block is zero at every index. -/
theorem pay1_apply (j : S1024x1024.Idx) : k0_pay1 (F := Ideal) j = 0 := by
  unfold k0_pay1
  refine (congrFun (shapeCast_self _ _) j).trans ?_
  exact Ideal.ofBits_zero_f32

/-- The update at (p, q): the accumulator's entry plus the sum over the contracted coordinate kk of
    a (kk, p) · b (kk, q). -/
theorem pay2_apply (acc : Vec Ideal S1024x1024 .f32) (a b : Vec Ideal S1024x1024 .bf16) (p q : Fin 1024) :
    k0_pay2 (F := Ideal) acc a b (ix2 p q)
      = (acc (ix2 p q) : EReal) + ∑ kk : Fin 1024, ((a (ix2 kk p) : EReal) * (b (ix2 kk q) : EReal)) := by
  unfold k0_pay2
  refine (congrFun (shapeCast_self _ _) (ix2 p q)).trans ?_
  refine (addf_apply _ _ _).trans ?_
  refine congrArg (fun z : EReal => (acc (ix2 p q) : EReal) + z) ?_
  have ea : shapeCast S1024x1024 a shapeCasts_S1024x1024_S1024x1024 = a := shapeCast_self _ _
  have eb : shapeCast S1024x1024 b shapeCasts_S1024x1024_S1024x1024 = b := shapeCast_self _ _
  rw [ea, eb]
  exact Cert.Lib.matmul_cc_apply dot_S1024x1024_S1024x1024_S1024x1024_0_0_1_1_n_n rfl rfl rfl rfl rfl rfl none a b p q

/-- Narrowing to the output's element type is the identity over the extended reals. -/
theorem pay3_eq (x : Vec Ideal S1024x1024 .f32) : k0_pay3 (F := Ideal) x = x := rfl

end Cert.KernelIdeal.Val

end
-- ==== Proof.R0ValueGrid.lean ====
/-
  The geometry of the first matrix product's grid. The 64 points are (i, j, k) ∈ 4 × 4 × 4 with k fastest, so the point
  at position n has i = n / 16, j = n / 4 mod 4, k = n mod 4. The left operand's block at a point is block (k, i) of the
  left matrix, the right operand's is block (k, j) of the right matrix, and the output's is block (i, j) of the product;
  a block's entry (a, b) is the array's entry (block row · 1024 + a, block column · 1024 + b). Every entry of the
  product lies in the output block of exactly the points (i, j, ·), and the one with k = 3 writes it back.
-/
import proofs.«105784_j76063870812747_1_alg».proof.Proof.R0Data
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The block indices of the three windows at the point at position n: (k, i), (k, j) and (i, j). -/
theorem idx_facts0 : ∀ t : Fin cfg0.N,
    win0_0.index t (0 : Fin 2) = t.val % 4 ∧ win0_0.index t (1 : Fin 2) = t.val / 16
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N,
    win0_0.index t (0 : Fin 2) = t.val % 4 ∧ win0_0.index t (1 : Fin 2) = t.val / 16
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4)

/-- The left matrix, the right matrix, and their blocks at a point, over literal shapes. -/
abbrev Larr (c : Dev nD) : Vec F S4096x4096 .bf16 := V c main_v11
abbrev Rarr (c : Dev nD) : Vec F S4096x4096 .bf16 := V c main_v10
abbrev Lblk (c : Dev nD) (t : Fin cfg0.N) : Vec F S1024x1024 .bf16 := iblk0 V c 0 t
abbrev Rblk (c : Dev nD) (t : Fin cfg0.N) : Vec F S1024x1024 .bf16 := iblk0 V c 1 t

/-- The left block at position n, at (a, b), is the left matrix at ((n mod 4) · 1024 + a, (n / 16) · 1024 + b). -/
theorem Lblk_apply (c : Dev nD) (t : Fin cfg0.N) (a b : Fin 1024) (x r : Fin 4096)
    (hx : x.val = t.val % 4 * 1024 + a.val) (hr : r.val = t.val / 16 * 1024 + b.val) :
    Lblk V c t (ix2 a b) = Larr V c (ix2 x r) := by
  obtain ⟨e0, e1, -, -, -, -⟩ := idx_facts0 t
  unfold Lblk iblk0
  rw [View.read_apply]
  show V c main_v11 _ = V c main_v11 _
  congr 1
  funext d
  apply Fin.ext
  match d with
  | ⟨0, _⟩ => show win0_0.index t (0 : Fin 2) * 1024 + 1 * a.val = x.val; rw [e0, hx]; omega
  | ⟨1, _⟩ => show win0_0.index t (1 : Fin 2) * 1024 + 1 * b.val = r.val; rw [e1, hr]; omega

/-- The right block at position n, at (a, b), is the right matrix at ((n mod 4) · 1024 + a, (n / 4 mod 4) · 1024 + b). -/
theorem Rblk_apply (c : Dev nD) (t : Fin cfg0.N) (a b : Fin 1024) (x s : Fin 4096)
    (hx : x.val = t.val % 4 * 1024 + a.val) (hs : s.val = t.val / 4 % 4 * 1024 + b.val) :
    Rblk V c t (ix2 a b) = Rarr V c (ix2 x s) := by
  obtain ⟨-, -, e0, e1, -, -⟩ := idx_facts0 t
  unfold Rblk iblk0
  rw [View.read_apply]
  show V c main_v10 _ = V c main_v10 _
  congr 1
  funext d
  apply Fin.ext
  match d with
  | ⟨0, _⟩ => show win0_1.index t (0 : Fin 2) * 1024 + 1 * a.val = x.val; rw [e0, hx]; omega
  | ⟨1, _⟩ => show win0_1.index t (1 : Fin 2) * 1024 + 1 * b.val = s.val; rw [e1, hs]; omega

/-- An entry of the product lies in the output block of a point iff each coordinate is in the block's range. -/
theorem mem_oblk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v19).slice (win0_2.rect t)).set ↔ _
  rw [View.set_slice_whole, Rect.mem_set_unit]
  exact Iff.rfl

/-- Where the output block's entry (a, b) sits in the product: row (n / 16) · 1024 + a, column (n / 4 mod 4) · 1024 + b. -/
theorem oblk_emb (t : Fin cfg0.N) (j : S1024x1024.Idx) :
    ((((cfg0.win 2).blk t).view.emb j : S4096x4096.Idx) 0).val = t.val / 16 * 1024 + (j 0).val
    ∧ ((((cfg0.win 2).blk t).view.emb j : S4096x4096.Idx) 1).val = t.val / 4 % 4 * 1024 + (j 1).val := by
  obtain ⟨-, -, -, -, e0, e1⟩ := idx_facts0 t
  constructor
  · show win0_2.index t (0 : Fin 2) * 1024 + 1 * (j 0).val = _; rw [e0]; omega
  · show win0_2.index t (1 : Fin 2) * 1024 + 1 * (j 1).val = _; rw [e1]; omega

/-- Every entry (r, s) of the product is in the output block of the point (r / 1024, s / 1024, 3), which writes it back. -/
theorem cover0 (i : S4096x4096.Idx) :
    ∃ t : Fin cfg0.N, (cfg0.win 2).flush t = true ∧ i ∈ ((cfg0.win 2).blk t).view.set := by
  have h0 : (i 0).val < 4096 := idx2_lt0 i
  have h1 : (i 1).val < 4096 := idx2_lt1 i
  have hN : cfg0.N = 64 := N_0
  let t : Fin cfg0.N := ⟨(i 0).val / 1024 * 16 + (i 1).val / 1024 * 4 + 3, by rw [hN]; omega⟩
  have ht : t.val = (i 0).val / 1024 * 16 + (i 1).val / 1024 * 4 + 3 := rfl
  obtain ⟨-, -, -, -, e0, e1⟩ := idx_facts0 t
  refine ⟨t, (flush0_2 t).mpr (by rw [ht]; omega), ?_⟩
  rw [mem_oblk]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 1024 ≤ (i 1).val ∧ (i 1).val < win0_2.index t (1 : Fin 2) * 1024 + 1024; rw [e1, ht]; omega

end Cert.KernelIdeal.Val

end
-- ==== Proof.LibRunSums.lean ====
/-
  Two ways of regrouping a finite sum, in any commutative additive monoid (so on the extended reals, where addition is
  commutative and associative at the infinities too, neither needs a finiteness hypothesis).
    * A sum over n = B·C consecutive terms is the sum over its B runs of C terms: term x = b·C + c belongs to run b.
    * Runs added one after another starting from the first, ((g 0 + g 1) + g 2) + …, are the sum of the runs.
  The terms are indexed by natural numbers, so that no statement carries a bound inside an index.
-/
import Mathlib.Data.Fintype.BigOperators
import Mathlib.Logic.Equiv.Fin.Basic
import Mathlib.Algebra.BigOperators.Fin

namespace Cert.Lib

variable {β : Type} [AddCommMonoid β]

/-- A sum over n = B·C terms is the sum over the B runs of the sum of the C terms of each run. -/
theorem sum_eq_sum_runs (B C n : ℕ) (hn : n = B * C) (f : ℕ → β) :
    ∑ x : Fin n, f x.val = ∑ b : Fin B, ∑ c : Fin C, f (b.val * C + c.val) := by
  subst hn
  rw [← Fintype.sum_prod_type' (fun (b : Fin B) (c : Fin C) => f (b.val * C + c.val))]
  refine (Fintype.sum_equiv finProdFinEquiv (fun p : Fin B × Fin C => f (p.1.val * C + p.2.val)) (fun x => f x.val)
    fun p => ?_).symm
  show f (p.1.val * C + p.2.val) = f (p.2.val + C * p.1.val)
  rw [Nat.add_comm, Nat.mul_comm]

/-- The runs added one after another, from the first: g 0, then + g 1, then + g 2, … -/
def accRuns (g : ℕ → β) : ℕ → β
  | 0 => g 0
  | k + 1 => accRuns g k + g (k + 1)

theorem accRuns_zero (g : ℕ → β) : accRuns g 0 = g 0 := rfl

theorem accRuns_succ (g : ℕ → β) (k : ℕ) : accRuns g (k + 1) = accRuns g k + g (k + 1) := rfl

/-- After run k the accumulated value is the sum of runs 0 … k. -/
theorem accRuns_eq_sum_range (g : ℕ → β) : ∀ k : ℕ, accRuns g k = ∑ b ∈ Finset.range (k + 1), g b
  | 0 => by rw [accRuns_zero, Finset.sum_range_one]
  | k + 1 => by rw [accRuns_succ, accRuns_eq_sum_range g k, Finset.sum_range_succ g (k + 1)]

theorem accRuns_eq_sum_fin (g : ℕ → β) (k : ℕ) : accRuns g k = ∑ b : Fin (k + 1), g b.val := by
  rw [accRuns_eq_sum_range, Fin.sum_univ_eq_sum_range (fun i => g i)]

/-- A sum over n = (k+1)·C terms accumulated run by run: after the last run it is the whole sum. -/
theorem accRuns_runs_eq_sum (k C n : ℕ) (hn : n = (k + 1) * C) (f : ℕ → β) :
    accRuns (fun b => ∑ c : Fin C, f (b * C + c.val)) k = ∑ x : Fin n, f x.val := by
  rw [accRuns_eq_sum_fin, sum_eq_sum_runs (k + 1) C n hn f]

end Cert.Lib
-- ==== Proof.Spec.lean ====
/-
  The mathematics of the quantised linear layer, over the extended reals.

  w0[o,i]  = ((q[i,o] / 15) · 2 − 1) · scale        the dequantised weight, transposed
  tmp      = Uᵀ · w0 ,   w1 = tmp · V                 the two-sided orthogonal transform
  out[b,s,o] = Σᵢ (x[b,s,i] / d[i]) · w1[o,i] + bias[o]

  The last line is how the kernel arranges the diagonal rescaling by d (it divides the input); the reference
  divides the weight instead, out[b,s,o] = Σᵢ x[b,s,i] · (w1[o,i] / d[i]) + bias[o]. Where no d[i] is zero both
  terms are x · w1 · d⁻¹, equal by commutativity and associativity of the product alone, so the two sums agree
  term by term, at the infinities too.
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped BigOperators

abbrev Sq : Shape := ⟨2, ![4096, 4096]⟩
abbrev Sx3 : Shape := ⟨3, ![4, 2048, 4096]⟩
abbrev Sx2 : Shape := ⟨2, ![8192, 4096]⟩
abbrev Sv : Shape := ⟨1, ![4096]⟩
abbrev Srow : Shape := ⟨2, ![1, 4096]⟩
abbrev S0 : Shape := ⟨0, ![]⟩

/-- The dequantised weight, transposed: w0[o,i] = ((q[i,o] / 15) · 2 − 1) · scale. -/
def w0 (q : Sq.Idx → BitVec 32) (scale : S0.Idx → EReal) : Sq.Idx → EReal := fun j =>
  ((Ideal.div (((q (ix2 (j 1 : Fin 4096) (j 0 : Fin 4096))).toInt : ℝ) : EReal) (Ideal.ofBits .f32 0x41700000#32)) * Ideal.ofBits .f32 0x40000000#32
      - Ideal.ofBits .f32 0x3F800000#32) * scale ix0

/-- Aᵀ · B. -/
def mulTN (A B : Sq.Idx → EReal) : Sq.Idx → EReal := fun j =>
  ∑ k : Fin 4096, A (ix2 k (j 0 : Fin 4096)) * B (ix2 k (j 1 : Fin 4096))

/-- A · B. -/
def mulNN (A B : Sq.Idx → EReal) : Sq.Idx → EReal := fun j =>
  ∑ k : Fin 4096, A (ix2 (j 0 : Fin 4096) k) * B (ix2 k (j 1 : Fin 4096))

/-- X · Wᵀ + b, the rows of X flattened: out[r,o] = Σᵢ X[r,i] · W[o,i] + b[0,o]. -/
def linT (X : Sx2.Idx → EReal) (W : Sq.Idx → EReal) (b : Srow.Idx → EReal) : Sx2.Idx → EReal := fun j =>
  (∑ k : Fin 4096, X (ix2 (j 0 : Fin 8192) k) * W (ix2 (j 1 : Fin 4096) k)) + b (ix2 (0 : Fin 1) (j 1 : Fin 4096))

/-- The input divided by the diagonal and its two leading axes flattened: xn[b·2048 + s, i] = x[b,s,i] / d[i]. -/
def xn (x : Sx3.Idx → EReal) (d : Sv.Idx → EReal) : Sx2.Idx → EReal := fun j =>
  Ideal.div (x (ix3 (⟨(j 0).val / 2048, by have h : (j 0).val < 8192 := (j 0).isLt; omega⟩ : Fin 4)
      (⟨(j 0).val % 2048, Nat.mod_lt _ (by decide)⟩ : Fin 2048) (j 1 : Fin 4096))) (d (ix1 (j 1 : Fin 4096)))

/-- The bias as a one-row matrix. -/
def biasRow (b : Sv.Idx → EReal) : Srow.Idx → EReal := fun j => b (ix1 (j 1 : Fin 4096))

/-- The transformed weight w1 = (Uᵀ · w0) · V. -/
def w1 (q : Sq.Idx → BitVec 32) (scale : S0.Idx → EReal) (U V : Sq.Idx → EReal) : Sq.Idx → EReal :=
  mulNN (mulTN U (w0 q scale)) V

/-- A flattened row's index from the two leading coordinates. -/
def flatRow (b : Fin 4) (s : Fin 2048) : Fin 8192 := ⟨b.val * 2048 + s.val, by have := b.isLt; have := s.isLt; omega⟩

/-- THE RESULT, in the kernel's arrangement, with its leading axis unflattened:
    out[b,s,o] = Σᵢ (x[b,s,i] / d[i]) · w1[o,i] + bias[o]. -/
def G (x : Sx3.Idx → EReal) (q : Sq.Idx → BitVec 32) (scale : S0.Idx → EReal) (d bias : Sv.Idx → EReal)
    (U V : Sq.Idx → EReal) : Sx3.Idx → EReal := fun j =>
  linT (xn x d) (w1 q scale U V) (biasRow bias) (ix2 (flatRow (j 0 : Fin 4) (j 1 : Fin 2048)) (j 2 : Fin 4096))

/-- The reference's arrangement: out[b,s,o] = Σᵢ x[b,s,i] · (w1[o,i] / d[i]) + bias[o]. -/
def Gref (x : Sx3.Idx → EReal) (q : Sq.Idx → BitVec 32) (scale : S0.Idx → EReal) (d bias : Sv.Idx → EReal)
    (U V : Sq.Idx → EReal) : Sx3.Idx → EReal := fun j =>
  (∑ k : Fin 4096, x (ix3 (j 0 : Fin 4) (j 1 : Fin 2048) k) * Ideal.div (w1 q scale U V (ix2 (j 2 : Fin 4096) k)) (d (ix1 k)))
    + bias (ix1 (j 2 : Fin 4096))

/-- Off zero a quotient is a product with the inverse, so dividing the left factor of a product is dividing the
    right one: (a / e) · w = a · e⁻¹ · w = a · (w · e⁻¹) = a · (w / e). Only associativity and commutativity of
    the product are used, so a, w may be infinite. -/
theorem div_mul_eq_mul_div (a w e : EReal) (he : e ≠ 0) : Ideal.div a e * w = a * Ideal.div w e := by
  unfold Ideal.div
  rw [if_neg he, if_neg he, mul_assoc, mul_comm e⁻¹ w]

/-- (b · 2048 + s) / 2048 = b for s < 2048. -/
theorem flatRow_div (b : Fin 4) (s : Fin 2048) : (flatRow b s).val / 2048 = b.val := by
  have hs := s.isLt
  show (b.val * 2048 + s.val) / 2048 = b.val
  omega

/-- (b · 2048 + s) % 2048 = s for s < 2048. -/
theorem flatRow_mod (b : Fin 4) (s : Fin 2048) : (flatRow b s).val % 2048 = s.val := by
  have hs := s.isLt
  show (b.val * 2048 + s.val) % 2048 = s.val
  omega

/-- The flattened, divided input at the row of (b, s) is x[b,s,k] / d[k]. -/
theorem xn_flatRow (x : Sx3.Idx → EReal) (d : Sv.Idx → EReal) (b : Fin 4) (s : Fin 2048) (k : Fin 4096) :
    xn x d (ix2 (flatRow b s) k) = Ideal.div (x (ix3 b s k)) (d (ix1 k)) := by
  have eb : ∀ h, (⟨(flatRow b s).val / 2048, h⟩ : Fin 4) = b := fun _ => Fin.ext (flatRow_div b s)
  have es : ∀ h, (⟨(flatRow b s).val % 2048, h⟩ : Fin 2048) = s := fun _ => Fin.ext (flatRow_mod b s)
  show Ideal.div (x (ix3 (⟨(flatRow b s).val / 2048, _⟩ : Fin 4) (⟨(flatRow b s).val % 2048, _⟩ : Fin 2048) k)) (d (ix1 k)) = _
  rw [eb, es]

/-- Where the diagonal has no zero entry the two arrangements are one function. -/
theorem G_eq_Gref (x : Sx3.Idx → EReal) (q : Sq.Idx → BitVec 32) (scale : S0.Idx → EReal) (d bias : Sv.Idx → EReal)
    (U V : Sq.Idx → EReal) (hd : ∀ k : Fin 4096, d (ix1 k) ≠ 0) :
    G x q scale d bias U V = Gref x q scale d bias U V := by
  funext j
  obtain ⟨b, s, o, rfl⟩ : ∃ (b : Fin 4) (s : Fin 2048) (o : Fin 4096), j = ix3 b s o := ⟨j 0, j 1, j 2, eq_ix3 j⟩
  show (∑ k : Fin 4096, xn x d (ix2 (flatRow b s) k) * w1 q scale U V (ix2 o k)) + bias (ix1 o)
      = (∑ k : Fin 4096, x (ix3 b s k) * Ideal.div (w1 q scale U V (ix2 o k)) (d (ix1 k))) + bias (ix1 o)
  refine congrArg (· + bias (ix1 o)) (Finset.sum_congr rfl fun k _ => ?_)
  rw [xn_flatRow]
  exact div_mul_eq_mul_div _ _ _ (hd k)

end Cert.Spec

end
-- ==== Proof.R0Value.lean ====
/-
  The value of the first matrix product: the array it writes is Aᵀ · B of the two matrices it reads.

  At the point (i, j, k) the accumulator's entry (p, q) is the sum, over the first (k + 1) · 1024 values x of the
  contracted coordinate, of A (x, i · 1024 + p) · B (x, j · 1024 + q): the point with k = 0 starts from the zero block,
  each point adds the run of 1024 terms of its own pair of blocks, and the extended reals' addition is commutative and
  associative with 0 + x = x, so the runs added one after another are the sum of all their terms — no entry need be
  finite. At k = 3 all 4096 terms are in, the output block is that accumulator, and the blocks (i, j) tile the array.
-/
import proofs.«105784_j76063870812747_1_alg».proof.Proof.R0ValuePieces
import proofs.«105784_j76063870812747_1_alg».proof.Proof.R0ValuePay
import proofs.«105784_j76063870812747_1_alg».proof.Proof.R0ValueGrid
import proofs.«105784_j76063870812747_1_alg».proof.Proof.LibRunSums
import proofs.«105784_j76063870812747_1_alg».proof.Proof.Spec
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The accumulator at a point, as the update of what the point before left -/

theorem accA_eq (c : Dev nD) (t : Fin cfg0.N) (h0 : t.val % 4 = 0) (h1 : ¬t.val % 4 = 3) :
    (outsAt0 V c t.val t.isLt).2 = k0_pay2 k0_pay1 (Lblk V c t) (Rblk V c t) := by
  rw [outsAt0_A V c t h0 h1]
  dsimp only
  exact soutA_eq (F := Ideal) c (grid0.coords t) (ms0_0 t) (hs0_0 t) (ms0_1 t) (hs0_1 t) (ms0_2 t) (hs0_2 t) scM0 (Memref.isWhole_whole _) ((hcond0_0 t).mpr h0) (fun h => h1 ((hcond0_1 t).mp h)) (Lblk V c t) (Rblk V c t)

theorem accB_eq (c : Dev nD) (t : Fin cfg0.N) (h0 : ¬t.val % 4 = 0) (h1 : ¬t.val % 4 = 3) :
    (outsAt0 V c t.val t.isLt).2 = k0_pay2 (outsAt0 V c (t.val - 1) (Nat.lt_of_le_of_lt (Nat.sub_le _ _) t.isLt)).2 (Lblk V c t) (Rblk V c t) := by
  rw [outsAt0_B V c t h0 h1]
  dsimp only
  exact soutB_eq (F := Ideal) c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (Lblk V c t) (Rblk V c t) (outsAt0 V c (t.val - 1) (Nat.lt_of_le_of_lt (Nat.sub_le _ _) t.isLt)).2

theorem accC_eq (c : Dev nD) (t : Fin cfg0.N) (h0 : ¬t.val % 4 = 0) (h1 : t.val % 4 = 3) :
    (outsAt0 V c t.val t.isLt).2 = k0_pay2 (outsAt0 V c (t.val - 1) (Nat.lt_of_le_of_lt (Nat.sub_le _ _) t.isLt)).2 (Lblk V c t) (Rblk V c t) := by
  rw [outsAt0_C V c t h0 h1]
  dsimp only
  exact soutC_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (Lblk V c t) (Rblk V c t) (outsAt0 V c (t.val - 1) (Nat.lt_of_le_of_lt (Nat.sub_le _ _) t.isLt)).2

/-- At k = 3 the output block is the accumulator the point leaves. -/
theorem outC_acc (c : Dev nD) (t : Fin cfg0.N) (h0 : ¬t.val % 4 = 0) (h1 : t.val % 4 = 3) :
    (outsAt0 V c t.val t.isLt).1 = k0_pay2 (outsAt0 V c (t.val - 1) (Nat.lt_of_le_of_lt (Nat.sub_le _ _) t.isLt)).2 (Lblk V c t) (Rblk V c t) := by
  rw [outsAt0_C V c t h0 h1]
  dsimp only
  exact (outC_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (Lblk V c t) (Rblk V c t) (outsAt0 V c (t.val - 1) (Nat.lt_of_le_of_lt (Nat.sub_le _ _) t.isLt)).2).trans (pay3_eq _)

/-! ## The terms of an entry's sum, and the run a point adds -/

/-- The term of entry (r, s) of Aᵀ · B at the value x of the contracted coordinate (zero past the matrices' extent,
    which no run reaches). -/
def term (c : Dev nD) (r s : Fin 4096) (x : ℕ) : EReal :=
  if h : x < 4096 then (Larr V c (ix2 ⟨x, h⟩ r) : EReal) * (Rarr V c (ix2 ⟨x, h⟩ s) : EReal) else 0

/-- Run b of entry (r, s): its 1024 terms from b · 1024 on. -/
def run (c : Dev nD) (r s : Fin 4096) (b : ℕ) : EReal := ∑ kk : Fin 1024, term V c r s (b * 1024 + kk.val)

/-- The product of a point's two blocks at (p, q) is run k of the entry (i · 1024 + p, j · 1024 + q). -/
theorem blockprod_eq (c : Dev nD) (t : Fin cfg0.N) (p q : Fin 1024) (r s : Fin 4096)
    (hr : r.val = t.val / 16 * 1024 + p.val) (hs : s.val = t.val / 4 % 4 * 1024 + q.val) :
    ∑ kk : Fin 1024, ((Lblk V c t (ix2 kk p) : EReal) * (Rblk V c t (ix2 kk q) : EReal)) = run V c r s (t.val % 4) := by
  unfold run
  refine Finset.sum_congr rfl fun kk _ => ?_
  have hk : kk.val < 1024 := kk.isLt
  have hb : t.val % 4 * 1024 + kk.val < 4096 := by omega
  unfold term
  rw [dif_pos hb, Lblk_apply V c t kk p ⟨_, hb⟩ r rfl hr, Rblk_apply V c t kk q ⟨_, hb⟩ s rfl hs]

/-! ## The invariant: after the point (i, j, k) the accumulator holds runs 0 … k added in order -/

theorem acc_first (c : Dev nD) (t : Fin cfg0.N) (h0 : t.val % 4 = 0) (p q : Fin 1024) (r s : Fin 4096)
    (hr : r.val = t.val / 16 * 1024 + p.val) (hs : s.val = t.val / 4 % 4 * 1024 + q.val) :
    ((outsAt0 V c t.val t.isLt).2 (ix2 p q) : EReal) = Cert.Lib.accRuns (run V c r s) (t.val % 4) := by
  rw [accA_eq V c t h0 (by omega)]
  refine (pay2_apply _ _ _ p q).trans ?_
  rw [pay1_apply, zero_add, blockprod_eq V c t p q r s hr hs, h0]
  rfl

theorem acc_next (c : Dev nD) (t : Fin cfg0.N) (h0 : ¬t.val % 4 = 0) (p q : Fin 1024) (r s : Fin 4096)
    (hr : r.val = t.val / 16 * 1024 + p.val) (hs : s.val = t.val / 4 % 4 * 1024 + q.val)
    (ih : ((outsAt0 V c (t.val - 1) (Nat.lt_of_le_of_lt (Nat.sub_le _ _) t.isLt)).2 (ix2 p q) : EReal) = Cert.Lib.accRuns (run V c r s) ((t.val - 1) % 4)) :
    ((outsAt0 V c t.val t.isLt).2 (ix2 p q) : EReal) = Cert.Lib.accRuns (run V c r s) (t.val % 4) := by
  have e : (outsAt0 V c t.val t.isLt).2 = k0_pay2 (outsAt0 V c (t.val - 1) (Nat.lt_of_le_of_lt (Nat.sub_le _ _) t.isLt)).2 (Lblk V c t) (Rblk V c t) := by
    by_cases h1 : t.val % 4 = 3
    · exact accC_eq V c t h0 h1
    · exact accB_eq V c t h0 h1
  rw [e]
  refine (pay2_apply _ _ _ p q).trans ?_
  refine (congrArg₂ (fun x y : EReal => x + y) ih (blockprod_eq V c t p q r s hr hs)).trans ?_
  have ek : t.val % 4 = (t.val - 1) % 4 + 1 := by omega
  rw [ek]
  exact (Cert.Lib.accRuns_succ _ _).symm

theorem acc_inv (c : Dev nD) : ∀ (n : ℕ) (hn : n < cfg0.N) (p q : Fin 1024) (r s : Fin 4096),
    r.val = n / 16 * 1024 + p.val → s.val = n / 4 % 4 * 1024 + q.val →
    ((outsAt0 V c n hn).2 (ix2 p q) : EReal) = Cert.Lib.accRuns (run V c r s) (n % 4)
  | 0, hn, p, q, r, s, hr, hs => acc_first V c ⟨0, hn⟩ rfl p q r s hr hs
  | m + 1, hn, p, q, r, s, hr, hs => by
    by_cases h0 : (m + 1) % 4 = 0
    · exact acc_first V c ⟨m + 1, hn⟩ h0 p q r s hr hs
    · refine acc_next V c ⟨m + 1, hn⟩ h0 p q r s hr hs ?_
      show ((outsAt0 V c m _).2 (ix2 p q) : EReal) = Cert.Lib.accRuns (run V c r s) (m % 4)
      exact acc_inv c m (Nat.lt_of_succ_lt hn) p q r s (by rw [hr]; omega) (by rw [hs]; omega)

/-! ## The output block at k = 3, the write-back, the array -/

/-- At a point with k = 3 the output block's entry is the whole sum: the entry of Aᵀ · B. -/
theorem oblk_apply (c : Dev nD) (t : Fin cfg0.N) (h3 : t.val % 4 = 3) (j : S1024x1024.Idx) (i : S4096x4096.Idx)
    (hi0 : (i 0).val = t.val / 16 * 1024 + (j 0).val) (hi1 : (i 1).val = t.val / 4 % 4 * 1024 + (j 1).val) :
    ((outsAt0 V c t.val t.isLt).1 j : EReal) = Cert.Spec.mulTN (Larr V c) (Rarr V c) i := by
  obtain ⟨p, q, rfl⟩ : ∃ (p q : Fin 1024), j = ix2 p q := ⟨j 0, j 1, eq_ix2 j⟩
  obtain ⟨r, s, rfl⟩ : ∃ (r s : Fin 4096), i = ix2 r s := ⟨i 0, i 1, eq_ix2 i⟩
  have h0 : ¬t.val % 4 = 0 := by omega
  have e : ((outsAt0 V c t.val t.isLt).1 (ix2 p q) : EReal) = (outsAt0 V c t.val t.isLt).2 (ix2 p q) :=
    (congrFun (outC_acc V c t h0 h3) (ix2 p q)).trans (congrFun (accC_eq V c t h0 h3) (ix2 p q)).symm
  refine e.trans ?_
  refine (acc_inv V c t.val t.isLt p q r s hi0 hi1).trans ?_
  rw [h3]
  refine (Cert.Lib.accRuns_runs_eq_sum 3 1024 4096 rfl (term V c r s)).trans ?_
  unfold Cert.Spec.mulTN
  refine Finset.sum_congr rfl fun x _ => ?_
  unfold term
  rw [dif_pos x.isLt]

/-- What a point with k = 3 writes back is its block of Aᵀ · B. -/
theorem flushed0_eq (c : Dev nD) (t : Fin cfg0.N) (hf : (cfg0.win 2).flush t = true) :
    (dat0 (F := Ideal) V c).flushed 2 t
      = ((cfg0.win 2).blk t).view.read (Elt Ideal) (Cert.Spec.mulTN (V c main_v11) (V c main_v10)) := by
  have h3 : t.val % 4 = 3 := (flush0_2 t).mp hf
  show (cfg0.win 2).cut (grid0.coords t) ((dat0 (F := Ideal) V c).after 2 t) = _
  rw [after0_2]
  funext j
  obtain ⟨e0, e1⟩ := oblk_emb t j
  exact oblk_apply V c t h3 j _ e0 e1

/-- The array the first matrix product writes is Aᵀ · B of the two matrices it reads. -/
theorem arr0_eq (c : Dev nD) :
    (dat0 (F := Ideal) V c).arrAt 2 cfg0.N = Cert.Spec.mulTN (V c main_v11) (V c main_v10) :=
  (dat0 (F := Ideal) V c).arrAt_eq_of_cover 2 (Cert.Spec.mulTN (V c main_v11) (V c main_v10)) (flushed0_eq V c) cover0

end Cert.KernelIdeal.Val

end
-- ==== Proof.R1ValueA.lean ====
/-
  The second matrix product, w1 = tmp · V: what each of the three cases of the body leaves, as a value. With acc the
  accumulator's contents before the point and a, b the two operand blocks:
    k = 0      the accumulator ends at  step 0 a b   where 0 is the zero block the reset stores,
    0 < k      the accumulator ends at  step acc a b,
    k = 3      and the output block ends at  narrow (step acc a b),
  where step adds the block product a · b to its first argument and narrow is the conversion to the output's
  element type. Each case's stores are read back: the last store through the whole block decides the contents, and a
  load of the block after such a store reads what was stored.
-/
import proofs.«105784_j76063870812747_1_alg».proof.Proof.R1Data
import Idealize.ShloMosaic.Lib.Pipeline.Value
import Idealize.ShloMosaic.Lib.Tactic

set_option maxRecDepth 16384

noncomputable section

namespace Cert.KernelIdeal.Val.R1

open Cert.KernelIdeal Cert.KernelIdeal.Gen Cert.KernelIdeal.Frm
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The offsets of a store or load through the whole block are zero on both axes. -/
theorem hz1 : (![0, 0] : Fin 2 → Nat) = fun _ => 0 := funext fun a => by fin_cases a <;> rfl

/-- k = 0: the accumulator is reset, read back, and the first block product added. -/
theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    sout1_A c i arg3 harg3 arg4 harg4 arg5 harg5 arg6 harg6 hc0 hc1 x0 x1 = k1_pay2 k1_pay1 x0 x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x1024) hz1]
  simp only [View.readAt_eq_ld, harg3.read_unread, harg4.read_unread, View.ld_unit_zero (S := S1024x1024) hz1,
    View.readCov_unit_zero (S := S1024x1024) _ hz1]

/-- 0 < k < 3: the block product is added to what the accumulator held. -/
theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    sout1_B c i arg3 harg3 arg4 harg4 arg5 harg5 arg6 harg6 hc0 hc1 x0 x1 xs0 = k1_pay2 xs0 x0 x1 := by
  unfold sout1_B
  rw [View.read_writes_eq_canon _ _ _ (scover1_B c i arg3 harg3 arg4 harg4 arg5 harg5 arg6 harg6 hc0 hc1 x0 x1 xs0)]
  unfold kernelRun1_B
  dsimp only
  try sl_unfold_words
  rw [View.canon_unit_zero hz1]
  simp only [View.readAt_eq_ld, harg3.read_unread, harg4.read_unread, harg6.read_unread,
    View.ld_unit_zero (S := S1024x1024) hz1]

/-- k = 3: the accumulator, as at the middle points. -/
theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    sout1_C c i arg3 harg3 arg4 harg4 arg5 harg5 arg6 harg6 hc0 hc1 x0 x1 xs0 = k1_pay2 xs0 x0 x1 := by
  unfold sout1_C
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero hz1]
  simp only [View.readAt_eq_ld, harg3.read_unread, harg4.read_unread, harg6.read_unread,
    View.ld_unit_zero (S := S1024x1024) hz1]

/-- k = 3: the output block is the finished accumulator, read back after its last store and narrowed. -/
theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    out1_C c i arg3 harg3 arg4 harg4 arg5 harg5 arg6 harg6 hc0 hc1 x0 x1 xs0 = k1_pay3 (k1_pay2 xs0 x0 x1) := by
  unfold out1_C
  rw [View.read_writes_eq_canon _ _ _ (cover1_C c i arg3 harg3 arg4 harg4 arg5 harg5 arg6 harg6 hc0 hc1 x0 x1 xs0)]
  unfold kernelRun1_C
  dsimp only
  sl_unfold_words
  rw [View.canon_unit_zero hz1]
  simp only [View.readAt_eq_ld, harg3.read_unread, harg4.read_unread, harg6.read_unread,
    View.ld_unit_zero (S := S1024x1024) hz1, View.readCov_unit_zero (S := S1024x1024) _ hz1]

end Cert.KernelIdeal.Val.R1

end
-- ==== Proof.R1ValueB.lean ====
/-
  The second matrix product, w1 = tmp · V, over the extended reals: the arithmetic of one grid point, and where its
  operand blocks lie in the two arrays.
    * The three values the body stores, read at an index (p, q) of the 1024 × 1024 block: the reset block is 0; the
      update of acc by the blocks a, b is acc (p, q) + Σ_kk a (p, kk) · b (kk, q) — the block product contracts the
      left block's columns against the right block's rows —; narrowing to the output's element type changes nothing.
    * At grid point number n = 16·i + 4·j + k the left block is block (i, k) of tmp, the right block is block (k, j)
      of V and the output block is block (i, j): entry (p, kk) of the left block is tmp (1024·i + p, 1024·k + kk), and
      so on. Hence the block product at (p, q) is the k-th run of 1024 terms of the sum
      Σ_x tmp (1024·i + p, x) · V (x, 1024·j + q) over x < 4096.
-/
import proofs.«105784_j76063870812747_1_alg».proof.Proof.R1Data
import proofs.«105784_j76063870812747_1_alg».proof.Proof.LibDotSum
import proofs.«105784_j76063870812747_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val.R1

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

/-! ## The stored values at an index -/

/-- The reset block is zero everywhere. -/
theorem pay1_apply (p q : Fin 1024) : k1_pay1 (F := Ideal) (ix2 p q) = 0 := by
  unfold k1_pay1
  refine (congrFun (shapeCast_self _ _) (ix2 p q)).trans ?_
  exact Ideal.ofBits_zero_f32

/-- The update: the accumulator's entry plus the (p, q) entry of the block product. -/
theorem pay2_apply (acc : Vec Ideal S1024x1024 .f32) (a b : Vec Ideal S1024x1024 .bf16) (p q : Fin 1024) :
    k1_pay2 (F := Ideal) acc a b (ix2 p q) = acc (ix2 p q) + ∑ kk : Fin 1024, a (ix2 p kk) * b (ix2 kk q) := by
  unfold k1_pay2
  refine (congrFun (shapeCast_self _ _) (ix2 p q)).trans ?_
  show acc (ix2 p q) + matmul (F := Ideal) dot_S1024x1024_S1024x1024_S1024x1024_1_0_0_1_n_n none
      (shapeCast S1024x1024 a shapeCasts_S1024x1024_S1024x1024) (shapeCast S1024x1024 b shapeCasts_S1024x1024_S1024x1024)
      (constant (F := Ideal) S1024x1024 .f32 0x00000000#32) (ix2 p q) = _
  rw [shapeCast_self, shapeCast_self]
  exact congrArg (acc (ix2 p q) + ·)
    (Cert.Lib.matmul_rc_apply dot_S1024x1024_S1024x1024_S1024x1024_1_0_0_1_n_n rfl rfl rfl rfl rfl rfl none a b p q)

/-- Narrowing is exact. -/
theorem pay3_eq (x : Vec Ideal S1024x1024 .f32) : k1_pay3 (F := Ideal) x = x := rfl

/-! ## The blocks in the arrays -/

variable (V : (c : Dev nD) → (b : Ref sig .tc) → Buf (Elt Ideal) ((c : Thread nD τ).loc b))

/-- tmp, the left operand's array, and V, the right operand's, as the region finds them. -/
abbrev tmpA (c : Dev nD) : Cert.Spec.Sq.Idx → EReal := V c main_v19
abbrev matB (c : Dev nD) : Cert.Spec.Sq.Idx → EReal := V c main_v12
/-- The two operand blocks at a grid point. -/
abbrev blkA (c : Dev nD) (t : Fin cfg1.N) : S1024x1024.Idx → EReal := iblk1 V c 0 t
abbrev blkB (c : Dev nD) (t : Fin cfg1.N) : S1024x1024.Idx → EReal := iblk1 V c 1 t

/-- The block indices at point number n = 16·i + 4·j + k: (i, k) for tmp, (k, j) for V, (i, j) for the output. -/
theorem idx_facts1 : ∀ t : Fin cfg1.N,
    win1_0.index t (0 : Fin 2) = t.val / 16 % 4 ∧ win1_0.index t (1 : Fin 2) = t.val % 4
    ∧ win1_1.index t (0 : Fin 2) = t.val % 4 ∧ win1_1.index t (1 : Fin 2) = t.val / 4 % 4
    ∧ win1_2.index t (0 : Fin 2) = t.val / 16 % 4 ∧ win1_2.index t (1 : Fin 2) = t.val / 4 % 4 :=
  (by decide +kernel : ∀ t : Fin grid1.N, _)

/-- The row of the arrays under row p of the blocks at point n, and the column under column q. -/
def row (n : ℕ) (p : Fin 1024) : Fin 4096 := ⟨n / 16 % 4 * 1024 + p.val, by have := p.isLt; omega⟩
def col (n : ℕ) (q : Fin 1024) : Fin 4096 := ⟨n / 4 % 4 * 1024 + q.val, by have := q.isLt; omega⟩

/-- An entry of the left block is the entry of tmp at the block's offsets plus the coordinates inside the block. -/
theorem blkA_apply (c : Dev nD) (t : Fin cfg1.N) (p kk : Fin 1024) (r x : Fin 4096)
    (hr : r.val = win1_0.index t 0 * 1024 + p.val) (hx : x.val = win1_0.index t 1 * 1024 + kk.val) :
    blkA V c t (ix2 p kk) = tmpA V c (ix2 r x) := by
  show iblk1 V c 0 t (ix2 p kk) = _
  unfold iblk1
  rw [View.read_apply]
  show V c main_v19 _ = V c main_v19 _
  congr 1
  funext a
  apply Fin.ext
  match a with
  | ⟨0, _⟩ => show win1_0.index t 0 * 1024 + 1 * p.val = r.val; omega
  | ⟨1, _⟩ => show win1_0.index t 1 * 1024 + 1 * kk.val = x.val; omega

/-- The same for the right block and V. -/
theorem blkB_apply (c : Dev nD) (t : Fin cfg1.N) (kk q : Fin 1024) (x cc : Fin 4096)
    (hx : x.val = win1_1.index t 0 * 1024 + kk.val) (hc : cc.val = win1_1.index t 1 * 1024 + q.val) :
    blkB V c t (ix2 kk q) = matB V c (ix2 x cc) := by
  show iblk1 V c 1 t (ix2 kk q) = _
  unfold iblk1
  rw [View.read_apply]
  show V c main_v12 _ = V c main_v12 _
  congr 1
  funext a
  apply Fin.ext
  match a with
  | ⟨0, _⟩ => show win1_1.index t 0 * 1024 + 1 * kk.val = x.val; omega
  | ⟨1, _⟩ => show win1_1.index t 1 * 1024 + 1 * q.val = cc.val; omega

/-- Term x of the contraction sum for entry (r, cc) of tmp · V; zero past the contraction's length, so that a term is
    named by a natural number. -/
def term (A B : Cert.Spec.Sq.Idx → EReal) (r cc : Fin 4096) (x : ℕ) : EReal :=
  if h : x < 4096 then A (ix2 r ⟨x, h⟩) * B (ix2 ⟨x, h⟩ cc) else 0

/-- The block product at point n, at (p, q), is run number n mod 4 of the 1024-term runs of that sum. -/
theorem blockprod_eq (c : Dev nD) (n : ℕ) (hn : n < cfg1.N) (p q : Fin 1024) :
    ∑ kk : Fin 1024, blkA V c ⟨n, hn⟩ (ix2 p kk) * blkB V c ⟨n, hn⟩ (ix2 kk q)
      = ∑ kk : Fin 1024, term (tmpA V c) (matB V c) (row n p) (col n q) (n % 4 * 1024 + kk.val) := by
  obtain ⟨e0, e1, e2, e3, -, -⟩ := idx_facts1 ⟨n, hn⟩
  refine Finset.sum_congr rfl fun kk _ => ?_
  have hk : n % 4 * 1024 + kk.val < 4096 := by have := kk.isLt; omega
  unfold term
  rw [dif_pos hk]
  congr 1
  · exact blkA_apply V c ⟨n, hn⟩ p kk (row n p) ⟨_, hk⟩ (by rw [e0]; rfl) (by rw [e1])
  · exact blkB_apply V c ⟨n, hn⟩ kk q ⟨_, hk⟩ (col n q) (by rw [e2]) (by rw [e3]; rfl)

end Cert.KernelIdeal.Val.R1

end
-- ==== Proof.R1Value.lean ====
/-
  The second matrix product, w1 = tmp · V, as an array. At grid point number n = 16·i + 4·j + k the accumulator's entry
  (p, q) is the sum of the first k + 1 runs of 1024 terms of Σ_x tmp (1024·i + p, x) · V (x, 1024·j + q): the point
  with k = 0 starts from the zero block, every later one adds its run to what the point before left, and the points of
  one (i, j) are consecutive. Sums over the extended reals regroup freely (addition there is commutative and
  associative, 0 + x = x), so at k = 3 the entry is the whole sum over x < 4096, which is entry
  (1024·i + p, 1024·j + q) of tmp · V. That point writes its block back as block (i, j) of the output; these sixteen
  blocks tile the array, so the array ends at tmp · V.
-/
import proofs.«105784_j76063870812747_1_alg».proof.Proof.R1ValueA
import proofs.«105784_j76063870812747_1_alg».proof.Proof.R1ValueB
import proofs.«105784_j76063870812747_1_alg».proof.Proof.LibRunSums

set_option maxRecDepth 16384

noncomputable section

namespace Cert.KernelIdeal.Val.R1

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## One point -/

/-- A point with k = 0 leaves the block product alone: it is added to the zero block. -/
theorem acc_first (c : Dev nD) (n : ℕ) (hn : n < cfg1.N) (h0 : n % 4 = 0) (p q : Fin 1024) :
    (outsAt1 V c n hn).2 (ix2 p q)
      = ∑ kk : Fin 1024, blkA V c ⟨n, hn⟩ (ix2 p kk) * blkB V c ⟨n, hn⟩ (ix2 kk q) := by
  have h1 : ¬n % 4 = 3 := by omega
  rw [show outsAt1 V c n hn = _ from outsAt1_A V c ⟨n, hn⟩ h0 h1]
  dsimp only
  refine (congrFun (sout1_A_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1 (Memref.isWhole_whole _) ((hcond1_0 ⟨n, hn⟩).mpr h0) (fun h => h1 ((hcond1_1 ⟨n, hn⟩).mp h)) (iblk1 V c 0 ⟨n, hn⟩) (iblk1 V c 1 ⟨n, hn⟩)) (ix2 p q)).trans ?_
  refine (pay2_apply _ _ _ p q).trans ?_
  rw [pay1_apply, zero_add]

/-- A point with k > 0 adds the block product to what the point before left. -/
theorem acc_next (c : Dev nD) (n : ℕ) (hn : n + 1 < cfg1.N) (h0 : ¬(n + 1) % 4 = 0) (p q : Fin 1024) :
    (outsAt1 V c (n + 1) hn).2 (ix2 p q)
      = (outsAt1 V c n (Nat.lt_of_succ_lt hn)).2 (ix2 p q)
        + ∑ kk : Fin 1024, blkA V c ⟨n + 1, hn⟩ (ix2 p kk) * blkB V c ⟨n + 1, hn⟩ (ix2 kk q) := by
  have prev : ∀ (m : ℕ) (hm : m < cfg1.N), m = n → (outsAt1 V c m hm).2 = (outsAt1 V c n (Nat.lt_of_succ_lt hn)).2 := by
    intro m hm e; subst e; rfl
  by_cases h1 : (n + 1) % 4 = 3
  · rw [show outsAt1 V c (n + 1) hn = _ from outsAt1_C V c ⟨n + 1, hn⟩ h0 h1]
    dsimp only
    refine (congrFun (sout1_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) _) (ix2 p q)).trans ?_
    refine (pay2_apply _ _ _ p q).trans ?_
    exact congrArg (· + _) (congrFun (prev (n + 1 - 1) _ (Nat.add_sub_cancel n 1)) (ix2 p q))
  · rw [show outsAt1 V c (n + 1) hn = _ from outsAt1_B V c ⟨n + 1, hn⟩ h0 h1]
    dsimp only
    refine (congrFun (sout1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) _) (ix2 p q)).trans ?_
    refine (pay2_apply _ _ _ p q).trans ?_
    exact congrArg (· + _) (congrFun (prev (n + 1 - 1) _ (Nat.add_sub_cancel n 1)) (ix2 p q))

/-! ## The accumulator at every point -/

/-- The runs of 1024 terms of the contraction sum for the entry under (p, q) at point n. -/
def runs (c : Dev nD) (n : ℕ) (p q : Fin 1024) : ℕ → EReal := fun b =>
  ∑ kk : Fin 1024, term (tmpA V c) (matB V c) (row n p) (col n q) (b * 1024 + kk.val)

/-- After point n the accumulator's entry is the first (n mod 4) + 1 runs, added one after another. -/
theorem acc_eq (c : Dev nD) : ∀ (n : ℕ) (hn : n < cfg1.N) (p q : Fin 1024),
    (outsAt1 V c n hn).2 (ix2 p q) = Cert.Lib.accRuns (runs V c n p q) (n % 4)
  | 0, hn, p, q => by
    rw [acc_first V c 0 hn rfl p q, blockprod_eq V c 0 hn p q]
    rfl
  | n + 1, hn, p, q => by
    by_cases h0 : (n + 1) % 4 = 0
    · rw [acc_first V c (n + 1) hn h0 p q, blockprod_eq V c (n + 1) hn p q, h0]
      rfl
    · have ih := acc_eq c n (Nat.lt_of_succ_lt hn) p q
      have er : row (n + 1) p = row n p :=
        Fin.ext (by show (n + 1) / 16 % 4 * 1024 + p.val = n / 16 % 4 * 1024 + p.val; omega)
      have ec : col (n + 1) q = col n q :=
        Fin.ext (by show (n + 1) / 4 % 4 * 1024 + q.val = n / 4 % 4 * 1024 + q.val; omega)
      have ek : (n + 1) % 4 = n % 4 + 1 := by omega
      have eruns : runs V c (n + 1) p q = runs V c n p q := by unfold runs; rw [er, ec]
      rw [acc_next V c n hn h0 p q, ih, blockprod_eq V c (n + 1) hn p q, ek, eruns, er, ec, Cert.Lib.accRuns_succ]
      rfl

/-- At k = 3 the four runs are the whole sum: the entry of tmp · V. -/
theorem acc_last (c : Dev nD) (n : ℕ) (hn : n < cfg1.N) (h3 : n % 4 = 3) (p q : Fin 1024) :
    (outsAt1 V c n hn).2 (ix2 p q) = Cert.Spec.mulNN (tmpA V c) (matB V c) (ix2 (row n p) (col n q)) := by
  rw [acc_eq V c n hn p q, h3]
  unfold runs
  rw [Cert.Lib.accRuns_runs_eq_sum 3 1024 4096 rfl (term (tmpA V c) (matB V c) (row n p) (col n q))]
  show _ = ∑ k : Fin 4096, tmpA V c (ix2 (row n p) k) * matB V c (ix2 k (col n q))
  refine Finset.sum_congr rfl fun x _ => ?_
  unfold term
  rw [dif_pos x.isLt]

/-! ## The output array -/

/-- At k = 3 the output block is the accumulator. -/
theorem out_eq_acc (c : Dev nD) (n : ℕ) (hn : n < cfg1.N) (h3 : n % 4 = 3) :
    (outsAt1 V c n hn).1 = (outsAt1 V c n hn).2 := by
  have h0 : ¬n % 4 = 0 := by omega
  rw [show outsAt1 V c n hn = _ from outsAt1_C V c ⟨n, hn⟩ h0 h3]
  dsimp only
  refine (out1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1 (Memref.isWhole_whole _) (fun h => h0 ((hcond1_0 ⟨n, hn⟩).mp h)) ((hcond1_1 ⟨n, hn⟩).mpr h3) (iblk1 V c 0 ⟨n, hn⟩) (iblk1 V c 1 ⟨n, hn⟩) _).trans ?_
  refine (pay3_eq _).trans ?_
  exact (sout1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1 (Memref.isWhole_whole _) (fun h => h0 ((hcond1_0 ⟨n, hn⟩).mp h)) ((hcond1_1 ⟨n, hn⟩).mpr h3) (iblk1 V c 0 ⟨n, hn⟩) (iblk1 V c 1 ⟨n, hn⟩) _).symm

/-- What a point with k = 3 writes back is its block of tmp · V. -/
theorem flushed1_eq (c : Dev nD) (t : Fin cfg1.N) (hf : (cfg1.win 2).flush t = true) :
    (dat1 V c).flushed 2 t
      = ((cfg1.win 2).blk t).view.read (Elt Ideal) (Cert.Spec.mulNN (tmpA V c) (matB V c)) := by
  have h3 : t.val % 4 = 3 := (flush1_2 t).mp hf
  obtain ⟨-, -, -, -, e4, e5⟩ := idx_facts1 t
  show (cfg1.win 2).cut (grid1.coords t) ((dat1 V c).after 2 t) = _
  rw [after1_2, out_eq_acc V c t.val t.isLt h3]
  funext y
  obtain ⟨p, q, rfl⟩ : ∃ (p q : Fin 1024), y = ix2 p q := ⟨y 0, y 1, eq_ix2 y⟩
  rw [View.read_apply]
  refine (acc_last V c t.val t.isLt h3 p q).trans ?_
  show Cert.Spec.mulNN (tmpA V c) (matB V c) (ix2 (row t.val p) (col t.val q))
    = Cert.Spec.mulNN (tmpA V c) (matB V c) (((cfg1.win 2).blk t).view.emb (ix2 p q))
  congr 1
  funext a
  apply Fin.ext
  match a with
  | ⟨0, _⟩ => show t.val / 16 % 4 * 1024 + p.val = win1_2.index t 0 * 1024 + 1 * p.val; rw [e4]; omega
  | ⟨1, _⟩ => show t.val / 4 % 4 * 1024 + q.val = win1_2.index t 1 * 1024 + 1 * q.val; rw [e5]; omega

/-- Every index of the output lies in the block of a point with k = 3: index (r, s) in that of i = r / 1024, j = s / 1024. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 64 := N_1
  have h0 : (i 0 : ℕ) < 4096 := (i 0).isLt
  have h1 : (i 1 : ℕ) < 4096 := (i 1).isLt
  obtain ⟨t, ht⟩ : ∃ t : Fin cfg1.N, t.val = (i 0 : ℕ) / 1024 * 16 + (i 1 : ℕ) / 1024 * 4 + 3 :=
    ⟨⟨(i 0 : ℕ) / 1024 * 16 + (i 1 : ℕ) / 1024 * 4 + 3, by rw [hN]; omega⟩, rfl⟩
  obtain ⟨-, -, -, -, e4, e5⟩ := idx_facts1 t
  refine ⟨t, (flush1_2 t).mpr (by omega), ?_⟩
  show i ∈ ((View.whole main_v20).slice (win1_2.rect t)).set
  rw [View.set_slice_whole, Rect.mem_set_unit]
  intro a
  match a with
  | ⟨0, _⟩ =>
    show win1_2.index t 0 * 1024 ≤ (i 0 : ℕ) ∧ (i 0 : ℕ) < win1_2.index t 0 * 1024 + 1024
    rw [e4]; omega
  | ⟨1, _⟩ =>
    show win1_2.index t 1 * 1024 ≤ (i 1 : ℕ) ∧ (i 1 : ℕ) < win1_2.index t 1 * 1024 + 1024
    rw [e5]; omega

end Cert.KernelIdeal.Val.R1

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The output array after the region: tmp · V. -/
theorem arr1_eq (c : Dev nD) :
    (dat1 (F := Ideal) V c).arrAt 2 cfg1.N = Cert.Spec.mulNN (V c main_v19) (V c main_v12) :=
  (dat1 V c).arrAt_eq_of_cover 2 (Cert.Spec.mulNN (R1.tmpA V c) (R1.matB V c)) (R1.flushed1_eq V c) (R1.cover1 c)

end Cert.KernelIdeal.Val

end
-- ==== Proof.R2ValuePiece.lean ====
/-
  What each case of the third product's body leaves, as arithmetic on the blocks it was handed. The body's run found,
  for the accumulator and for the output block, the list of stores made; every list ends in a store of the whole block,
  so the block's final contents are that store's value, and each value it reads back is either a block handed to the
  body or an earlier whole-block store of the same run:
    k = 0:      the accumulator ends at (the zero block) + the product of the two operand blocks;
    0 < k < 3:  at (what it held) + the product;
    k = 3:      the same, and the output block ends at that accumulator + the bias row repeated down the rows.
  Stated for any float values.
-/
import proofs.«105784_j76063870812747_1_alg».proof.Proof.R2Data
import Idealize.ShloMosaic.Lib.Pipeline.Value
import Idealize.ShloMosaic.Lib.Tactic

set_option maxRecDepth 16384

noncomputable section

namespace Cert.KernelIdeal.Val.R2

open Cert.KernelIdeal Cert.KernelIdeal.Gen Cert.KernelIdeal.Frm
open Idealize.ShloMosaic.Tactic
open Idealize.ShloMosaic Idealize.ShloMosaic.TcCoe
open Idealize.SL Idealize.SL.Sem
open scoped BigOperators

variable {F : FTy → Type} [FloatOps F]

/-- A block's origin, as the constant function. -/
theorem origin2 : (![0, 0] : Fin 2 → Nat) = fun _ => 0 := funext fun a => by fin_cases a <;> rfl

/-- k = 0: the accumulator ends at the zero block plus the product of the operand blocks. -/
theorem sout2_A_eq (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .bf16) (x2 : Vec F S1x1024 .f32) :
    sout2_A c i arg3 harg3 arg4 harg4 arg5 harg5 arg6 harg6 arg7 harg7 hc0 hc1 x0 x1 x2 = k2_pay2 k2_pay1 x0 x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  sl_unfold_words
  rw [View.canon_cons_unit_zero (S := S512x1024) origin2]
  simp only [View.readAt_eq_ld, harg3.read_unread, harg4.read_unread, View.ld_unit_zero (S := S512x1024) origin2,
    View.ld_unit_zero (S := S1024x1024) origin2, View.readCov_unit_zero (S := S512x1024) _ origin2]

/-- 0 < k < 3: the accumulator ends at what it held plus the product of the operand blocks. -/
theorem sout2_B_eq (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .bf16) (x2 : Vec F S1x1024 .f32) (xs0 : Vec F S512x1024 .f32) :
    sout2_B c i arg3 harg3 arg4 harg4 arg5 harg5 arg6 harg6 arg7 harg7 hc0 hc1 x0 x1 x2 xs0 = k2_pay2 xs0 x0 x1 := by
  unfold sout2_B
  rw [View.read_writes_eq_canon _ _ _ (scover2_B c i arg3 harg3 arg4 harg4 arg5 harg5 arg6 harg6 arg7 harg7 hc0 hc1 x0 x1 x2 xs0)]
  unfold kernelRun2_B
  dsimp only
  sl_unfold_words
  rw [View.canon_unit_zero origin2]
  simp only [View.readAt_eq_ld, harg3.read_unread, harg4.read_unread, harg7.read_unread, View.ld_unit_zero (S := S512x1024) origin2,
    View.ld_unit_zero (S := S1024x1024) origin2]

/-- k = 3: the accumulator ends at what it held plus the product of the operand blocks. -/
theorem sout2_C_eq (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) :
    sout2_C c i arg3 harg3 arg4 harg4 arg5 harg5 arg6 harg6 arg7 harg7 hc0 hc1 x0 x1 x2 xs0 = k2_pay2 xs0 x0 x1 := by
  unfold sout2_C
  rw [View.read_writes_eq_canon _ _ _ (scover2_C c i arg3 harg3 arg4 harg4 arg5 harg5 arg6 harg6 arg7 harg7 hc0 hc1 x0 x1 x2 xs0)]
  unfold kernelRun2_C
  dsimp only
  sl_unfold_words
  rw [View.canon_unit_zero origin2]
  simp only [View.readAt_eq_ld, harg3.read_unread, harg4.read_unread, harg7.read_unread, View.ld_unit_zero (S := S512x1024) origin2,
    View.ld_unit_zero (S := S1024x1024) origin2]

/-- k = 3: the output block ends at that accumulator plus the bias row repeated down the rows. -/
theorem out2_C_eq (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .bf16) (x2 : Vec F S1x1024 .f32) (xs0 : Vec F S512x1024 .f32) :
    out2_C c i arg3 harg3 arg4 harg4 arg5 harg5 arg6 harg6 arg7 harg7 hc0 hc1 x0 x1 x2 xs0 = k2_pay3 (k2_pay2 xs0 x0 x1) x2 := by
  unfold out2_C
  rw [View.read_writes_eq_canon _ _ _ (cover2_C c i arg3 harg3 arg4 harg4 arg5 harg5 arg6 harg6 arg7 harg7 hc0 hc1 x0 x1 x2 xs0)]
  unfold kernelRun2_C
  dsimp only
  sl_unfold_words
  rw [View.canon_unit_zero origin2]
  simp only [View.readAt_eq_ld, harg3.read_unread, harg4.read_unread, harg5.read_unread, harg7.read_unread,
    View.ld_unit_zero (S := S512x1024) origin2, View.ld_unit_zero (S := S1024x1024) origin2, View.ld_unit_zero (S := S1x1024) origin2,
    View.readCov_unit_zero (S := S512x1024) _ origin2]

end Cert.KernelIdeal.Val.R2

end
-- ==== Proof.LibDotRows.lean ====
/-
  A matrix product whose two operands are BOTH contracted over their axis 1: an [M, K] array against an [N, K] array
  (the right operand stored output-major, so that the product is A · Bᵀ without a transposition being computed).
  The library states the product's value as a sum over the dimension numbers' contraction index set of the operands at
  two computed operand indices. Here the contraction index is one coordinate `k`, and the operand indices are (r, k) and
  (c, k): entry (r, c) of the product is the sum over k of A (r, k) · B (c, k), the inner product of row r of A with
  row c of B. Stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.R2ValuePay.lean ====
/-
  The arithmetic of the third product's body, entry by entry, over the extended reals (every operation exact).
  The reset block is zero everywhere. The accumulation step adds to the accumulator's entry (p, q) the inner product of
  row p of the left block with row q of the right block: both blocks are contracted over their second axis, the right
  operand being stored output-major. The write-out step adds to entry (p, q) the bias row's entry q: the one-row block is
  repeated down the 512 rows. Reshapes to the same shape change nothing.
-/
import proofs.«105784_j76063870812747_1_alg».proof.Proof.Gen.KernelIdeal.Skeleton
import proofs.«105784_j76063870812747_1_alg».proof.Proof.LibDotRows
import Idealize.ShloMosaic.Lib.Pipeline.Value
import Idealize.ShloMosaic.PureOps.Ideal.Laws

set_option maxRecDepth 16384

noncomputable section

namespace Cert.KernelIdeal.Val.R2

open Cert.KernelIdeal Cert.KernelIdeal.Gen
open Idealize.ShloMosaic Idealize.ShloMosaic.TcCoe Idealize.ShloMosaic.ValueIdx
open Idealize.SL Idealize.SL.Sem
open scoped BigOperators

/-- The reset block: zero at every entry. -/
theorem pay1_apply (p : Fin 512) (q : Fin 1024) : k2_pay1 (F := Ideal) (ix2 p q) = 0 := by
  unfold k2_pay1
  refine (congrFun (shapeCast_self _ _) (ix2 p q)).trans ?_
  exact Ideal.ofBits_zero_f32

/-- The accumulation step at (p, q): the accumulator's entry plus the inner product of row p of the left block and
    row q of the right block. -/
theorem pay2_apply (acc : Vec Ideal S512x1024 .f32) (a : Vec Ideal S512x1024 .bf16) (b : Vec Ideal S1024x1024 .bf16)
    (p : Fin 512) (q : Fin 1024) :
    k2_pay2 acc a b (ix2 p q) = acc (ix2 p q) + ∑ kk : Fin 1024, a (ix2 p kk) * b (ix2 q kk) := by
  unfold k2_pay2
  refine (congrFun (shapeCast_self _ _) (ix2 p q)).trans ?_
  refine congrArg (acc (ix2 p q) + ·) ?_
  refine (congrFun (congrArg₂ (fun u v => matmul dot_S512x1024_S1024x1024_S512x1024_1_1_0_0_n_n none u v
    (constant (F := Ideal) S512x1024 .f32 0x00000000#32)) (shapeCast_self a _) (shapeCast_self b _)) (ix2 p q)).trans ?_
  exact Cert.Lib.matmul_rr_apply dot_S512x1024_S1024x1024_S512x1024_1_1_0_0_n_n rfl rfl rfl rfl rfl rfl none a b p q

/-- The write-out step at (p, q): the accumulator's entry plus the bias row's entry q. -/
theorem pay3_apply (acc : Vec Ideal S512x1024 .f32) (r : Vec Ideal S1x1024 .f32) (p : Fin 512) (q : Fin 1024) :
    k2_pay3 acc r (ix2 p q) = acc (ix2 p q) + r (ix2 (0 : Fin 1) q) := by
  unfold k2_pay3
  refine congrArg (acc (ix2 p q) + ·) ?_
  refine (broadcastTo_apply _ _ (ix2 p q) (ix2 (0 : Fin 1) q) (fun a => ?_)).trans (congrFun (shapeCast_self r _) _)
  match a with
  | ⟨0, _⟩ => rfl
  | ⟨1, _⟩ => rfl

end Cert.KernelIdeal.Val.R2

end
-- ==== Proof.R2ValueSum.lean ====
/-
  The contraction of the third product, cut into its four runs of 1024 terms.
  Entry (r, o) of X · Wᵀ is the sum over the 4096 contraction positions x of X (r, x) · W (o, x). The pipeline adds it up
  run by run: the k-th grid step along the contraction axis contributes the 1024 terms at positions k·1024 … k·1024 + 1023,
  which it reads as row p of a left block and row q of a right block. Adding the four runs one after another, starting
  from the first, gives the whole sum: addition of extended reals is commutative and associative, so no finiteness is
  asked of the entries. The terms are indexed by natural numbers (zero past the end) so that a run's position needs no
  bound inside an index.
  Also here: the block index of each window at a grid position, in closed form: with position t = (i·4 + j)·4 + k,
  i = t / 16, j = t / 4 mod 4, k = t mod 4.
-/
import proofs.«105784_j76063870812747_1_alg».proof.Proof.Gen.KernelIdeal.Skeleton
import proofs.«105784_j76063870812747_1_alg».proof.Proof.LibRunSums
import Idealize.ShloMosaic.PureOps.Ideal.Laws
import Idealize.ShloMosaic.Lib.ValueIdx

set_option maxRecDepth 16384

noncomputable section

namespace Cert.KernelIdeal.Val.R2

open Cert.KernelIdeal Cert.KernelIdeal.Gen
open Idealize.ShloMosaic Idealize.ShloMosaic.TcCoe Idealize.ShloMosaic.ValueIdx
open Idealize.SL Idealize.SL.Sem
open scoped BigOperators

variable (X : Vec Ideal S8192x4096 .bf16) (W : Vec Ideal S4096x4096 .bf16)

/-- The term of entry (r, o) at contraction position x; zero past the last position. -/
def term (r : Fin 8192) (o : Fin 4096) (x : ℕ) : EReal :=
  if h : x < 4096 then X (ix2 r (⟨x, h⟩ : Fin 4096)) * W (ix2 o (⟨x, h⟩ : Fin 4096)) else 0

/-- The b-th run of 1024 consecutive terms of entry (r, o). -/
def runSum (r : Fin 8192) (o : Fin 4096) (b : ℕ) : EReal := ∑ cc : Fin 1024, term X W r o (b * 1024 + cc.val)

/-- The four runs added one after another are the whole contraction. -/
theorem accRuns_last (r : Fin 8192) (o : Fin 4096) :
    Cert.Lib.accRuns (runSum X W r o) 3 = ∑ k : Fin 4096, X (ix2 r k) * W (ix2 o k) :=
  (Cert.Lib.accRuns_runs_eq_sum 3 1024 4096 rfl (term X W r o)).trans
    (Finset.sum_congr rfl fun k _ => dif_pos k.isLt)

/-- A pair of blocks whose rows p and q hold the entries of rows r and o at the positions of run b: the inner product of
    those two block rows is run b. -/
theorem blockSum_eq_runSum (a : Vec Ideal S512x1024 .bf16) (w : Vec Ideal S1024x1024 .bf16) (p : Fin 512) (q : Fin 1024)
    (r : Fin 8192) (o : Fin 4096) (b : ℕ) (hb : b < 4)
    (ha : ∀ kk : Fin 1024, a (ix2 p kk) = X (ix2 r (⟨b * 1024 + kk.val, by have := kk.isLt; omega⟩ : Fin 4096)))
    (hw : ∀ kk : Fin 1024, w (ix2 q kk) = W (ix2 o (⟨b * 1024 + kk.val, by have := kk.isLt; omega⟩ : Fin 4096))) :
    ∑ kk : Fin 1024, a (ix2 p kk) * w (ix2 q kk) = runSum X W r o b := by
  refine Finset.sum_congr rfl fun kk _ => ?_
  rw [ha kk, hw kk]
  unfold term
  rw [dif_pos (by have := kk.isLt; omega : b * 1024 + kk.val < 4096)]

/-! ## The block indices at a grid position -/

/-- The left operand's block is (i, k), the right operand's (j, k), the bias row's (0, j), the output's (i, j). -/
theorem blockIdx : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

/-- Every output block is the block of some grid position with k = 3. -/
theorem blockOnto : ∀ (i : Fin 16) (j : Fin 4), ∃ t : Fin cfg2.N, t.val % 4 = 3 ∧ t.val / 16 = i.val ∧ t.val / 4 % 4 = j.val :=
  (by decide +kernel : ∀ (i : Fin 16) (j : Fin 4), ∃ t : Fin grid2.N, t.val % 4 = 3 ∧ t.val / 16 = i.val ∧ t.val / 4 % 4 = j.val)

end Cert.KernelIdeal.Val.R2

end
-- ==== Proof.R2Value.lean ====
/-
  The value of the third product's region: after the pipeline has run over its 16 × 4 × 4 grid, the output array holds
  X · Wᵀ + b, entry by entry, over the extended reals.

  At grid position t = (i·4 + j)·4 + k the body is handed rows i·512 … of X and rows j·1024 … of W, both at the
  contraction positions k·1024 …, and the bias row's entries j·1024 …. Entry (p, q) of the accumulator after the body is
  the first k + 1 runs of 1024 terms of entry (i·512 + p, j·1024 + q) of X · Wᵀ, added one after another: at k = 0 the
  accumulator is reset to zero and the first run added, at k > 0 the k-th run is added to what the position before left
  (the same i and j, one k lower). At k = 3 all four runs are in, which is the whole contraction, and the body stores
  that plus the bias entry into the output block; that block is written back to rows i·512 …, columns j·1024 … of the
  output array. Every output entry lies in exactly one such block, so the array ends at X · Wᵀ + b.
-/
import proofs.«105784_j76063870812747_1_alg».proof.Proof.R2ValuePiece
import proofs.«105784_j76063870812747_1_alg».proof.Proof.R2ValuePay
import proofs.«105784_j76063870812747_1_alg».proof.Proof.R2ValueSum
import proofs.«105784_j76063870812747_1_alg».proof.Proof.Spec
import Idealize.ShloMosaic.Lib.Pipeline.Value
import Idealize.ShloMosaic.PureOps.Ideal.Laws

set_option maxRecDepth 16384

noncomputable section

namespace Cert.KernelIdeal.Val.R2

open Cert.KernelIdeal Cert.KernelIdeal.Gen Cert.KernelIdeal.Frm
open Idealize.ShloMosaic.Pipeline (Dat Cfg Window)
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-! ## The arrays and the blocks, at their literal types -/

/-- The left operand X, the right operand W (stored output-major) and the bias row b, as the region finds them. -/
abbrev xarr (c : Dev nD) : Vec Ideal S8192x4096 .bf16 := V c main_v17
abbrev warr (c : Dev nD) : Vec Ideal S4096x4096 .bf16 := V c main_v20
abbrev barr (c : Dev nD) : Vec Ideal S1x4096 .f32 := V c main_v18
/-- The blocks of the three operands the body is handed at position t. -/
abbrev xblk (c : Dev nD) (t : Fin cfg2.N) : Vec Ideal S512x1024 .bf16 := iblk2 V c 0 t
abbrev wblk (c : Dev nD) (t : Fin cfg2.N) : Vec Ideal S1024x1024 .bf16 := iblk2 V c 1 t
abbrev bblk (c : Dev nD) (t : Fin cfg2.N) : Vec Ideal S1x1024 .f32 := iblk2 V c 2 t

/-- The output row that row p of the block of position t is: i·512 + p. -/
def rowOf (t : Fin cfg2.N) (p : Fin 512) : Fin 8192 :=
  ⟨t.val / 16 * 512 + p.val, by have ht := t.isLt; have hN : cfg2.N = 256 := N_2; have hp := p.isLt; omega⟩
/-- The output column that column q of the block of position t is: j·1024 + q. -/
def colOf (t : Fin cfg2.N) (q : Fin 1024) : Fin 4096 :=
  ⟨t.val / 4 % 4 * 1024 + q.val, by have hq := q.isLt; omega⟩
/-- The contraction position that position kk of the blocks of position t is: k·1024 + kk. -/
def posOf (t : Fin cfg2.N) (kk : Fin 1024) : Fin 4096 :=
  ⟨t.val % 4 * 1024 + kk.val, by have hk := kk.isLt; omega⟩

/-- The left block's entry (p, kk) is X's entry (i·512 + p, k·1024 + kk). -/
theorem xblk_apply (c : Dev nD) (t : Fin cfg2.N) (p : Fin 512) (kk : Fin 1024) :
    xblk V c t (ix2 p kk) = xarr V c (ix2 (rowOf t p) (posOf t kk)) := by
  obtain ⟨e0, e1, -⟩ := blockIdx t
  show xarr V c (((cfg2.win 0).blk t).view.emb (ix2 p kk)) = xarr V c (ix2 (rowOf t p) (posOf t kk))
  refine congrArg (xarr V c) (funext fun a => Fin.ext ?_)
  match a with
  | ⟨0, _⟩ => show win2_0.index t (0 : Fin 2) * 512 + 1 * p.val = t.val / 16 * 512 + p.val; rw [e0]; omega
  | ⟨1, _⟩ => show win2_0.index t (1 : Fin 2) * 1024 + 1 * kk.val = t.val % 4 * 1024 + kk.val; rw [e1]; omega

/-- The right block's entry (q, kk) is W's entry (j·1024 + q, k·1024 + kk). -/
theorem wblk_apply (c : Dev nD) (t : Fin cfg2.N) (q : Fin 1024) (kk : Fin 1024) :
    wblk V c t (ix2 q kk) = warr V c (ix2 (colOf t q) (posOf t kk)) := by
  obtain ⟨-, -, e2, e3, -⟩ := blockIdx t
  show warr V c (((cfg2.win 1).blk t).view.emb (ix2 q kk)) = warr V c (ix2 (colOf t q) (posOf t kk))
  refine congrArg (warr V c) (funext fun a => Fin.ext ?_)
  match a with
  | ⟨0, _⟩ => show win2_1.index t (0 : Fin 2) * 1024 + 1 * q.val = t.val / 4 % 4 * 1024 + q.val; rw [e2]; omega
  | ⟨1, _⟩ => show win2_1.index t (1 : Fin 2) * 1024 + 1 * kk.val = t.val % 4 * 1024 + kk.val; rw [e3]; omega

/-- The bias block's entry q is b's entry j·1024 + q. -/
theorem bblk_apply (c : Dev nD) (t : Fin cfg2.N) (q : Fin 1024) :
    bblk V c t (ix2 (0 : Fin 1) q) = barr V c (ix2 (0 : Fin 1) (colOf t q)) := by
  obtain ⟨-, -, -, -, e4, e5, -⟩ := blockIdx t
  show barr V c (((cfg2.win 2).blk t).view.emb (ix2 (0 : Fin 1) q)) = barr V c (ix2 (0 : Fin 1) (colOf t q))
  refine congrArg (barr V c) (funext fun a => Fin.ext ?_)
  match a with
  | ⟨0, _⟩ => show win2_2.index t (0 : Fin 2) * 1 + 1 * (0 : Fin 1).val = (0 : Fin 1).val; rw [e4]; rfl
  | ⟨1, _⟩ => show win2_2.index t (1 : Fin 2) * 1024 + 1 * q.val = t.val / 4 % 4 * 1024 + q.val; rw [e5]; omega

/-! ## One accumulation step -/

/-- The accumulation step at position t adds to entry (p, q) run k of entry (i·512 + p, j·1024 + q) of X · Wᵀ. -/
theorem step_apply (c : Dev nD) (t : Fin cfg2.N) (acc : Vec Ideal S512x1024 .f32) (p : Fin 512) (q : Fin 1024) :
    k2_pay2 acc (xblk V c t) (wblk V c t) (ix2 p q)
      = acc (ix2 p q) + runSum (xarr V c) (warr V c) (rowOf t p) (colOf t q) (t.val % 4) := by
  refine (pay2_apply acc (xblk V c t) (wblk V c t) p q).trans ?_
  refine congrArg (acc (ix2 p q) + ·) ?_
  exact blockSum_eq_runSum (xarr V c) (warr V c) (xblk V c t) (wblk V c t) p q (rowOf t p) (colOf t q) (t.val % 4)
    (Nat.mod_lt _ (by decide)) (fun kk => xblk_apply V c t p kk) (fun kk => wblk_apply V c t q kk)

/-- At k = 0 the accumulator ends at the first run. -/
theorem acc_first (c : Dev nD) (t : Fin cfg2.N) (h0 : t.val % 4 = 0) (p : Fin 512) (q : Fin 1024) :
    (outsAt2 V c t.val t.isLt).2 (ix2 p q) = runSum (xarr V c) (warr V c) (rowOf t p) (colOf t q) 0 := by
  have h1 : ¬t.val % 4 = 3 := by omega
  rw [outsAt2_A V c t h0 h1]
  dsimp only
  refine (congrFun (sout2_A_eq (F := Ideal) c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (xblk V c t) (wblk V c t) (bblk V c t)) (ix2 p q)).trans ?_
  refine (step_apply V c t (k2_pay1 (F := Ideal)) p q).trans ?_
  rw [pay1_apply, zero_add, h0]

/-- At k > 0 the accumulator ends at what the position before left plus run k. -/
theorem acc_next (c : Dev nD) (t : Fin cfg2.N) (h0 : ¬t.val % 4 = 0) (p : Fin 512) (q : Fin 1024) :
    (outsAt2 V c t.val t.isLt).2 (ix2 p q)
      = (outsAt2 V c (t.val - 1) (Nat.lt_of_le_of_lt (Nat.sub_le _ _) t.isLt)).2 (ix2 p q)
        + runSum (xarr V c) (warr V c) (rowOf t p) (colOf t q) (t.val % 4) := by
  by_cases h1 : t.val % 4 = 3
  · rw [outsAt2_C V c t h0 h1]
    dsimp only
    refine (congrFun (sout2_C_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (xblk V c t) (wblk V c t) (bblk V c t)
      (outsAt2 V c (t.val - 1) (Nat.lt_of_le_of_lt (Nat.sub_le _ _) t.isLt)).2) (ix2 p q)).trans ?_
    exact step_apply V c t (outsAt2 V c (t.val - 1) (Nat.lt_of_le_of_lt (Nat.sub_le _ _) t.isLt)).2 p q
  · rw [outsAt2_B V c t h0 h1]
    dsimp only
    refine (congrFun (sout2_B_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (xblk V c t) (wblk V c t) (bblk V c t)
      (outsAt2 V c (t.val - 1) (Nat.lt_of_le_of_lt (Nat.sub_le _ _) t.isLt)).2) (ix2 p q)).trans ?_
    exact step_apply V c t (outsAt2 V c (t.val - 1) (Nat.lt_of_le_of_lt (Nat.sub_le _ _) t.isLt)).2 p q

/-- At k = 3 the output block ends at the accumulator plus the bias entry of its column. -/
theorem out_last (c : Dev nD) (t : Fin cfg2.N) (h3 : t.val % 4 = 3) (p : Fin 512) (q : Fin 1024) :
    (outsAt2 V c t.val t.isLt).1 (ix2 p q)
      = (outsAt2 V c t.val t.isLt).2 (ix2 p q) + barr V c (ix2 (0 : Fin 1) (colOf t q)) := by
  have h0 : ¬t.val % 4 = 0 := by omega
  rw [outsAt2_C V c t h0 h3]
  dsimp only
  refine (congrFun (out2_C_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h3) (xblk V c t) (wblk V c t) (bblk V c t)
    (outsAt2 V c (t.val - 1) (Nat.lt_of_le_of_lt (Nat.sub_le _ _) t.isLt)).2) (ix2 p q)).trans ?_
  refine (pay3_apply (k2_pay2 (outsAt2 V c (t.val - 1) (Nat.lt_of_le_of_lt (Nat.sub_le _ _) t.isLt)).2 (xblk V c t) (wblk V c t)) (bblk V c t) p q).trans ?_
  refine congrArg₂ (· + ·) (congrFun (sout2_C_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h3) (xblk V c t) (wblk V c t) (bblk V c t)
    (outsAt2 V c (t.val - 1) (Nat.lt_of_le_of_lt (Nat.sub_le _ _) t.isLt)).2) (ix2 p q)).symm (bblk_apply V c t q)

/-! ## The accumulator after every position -/

/-- After position n = (i·4 + j)·4 + k the accumulator's entry (p, q) is the first k + 1 runs of entry
    (i·512 + p, j·1024 + q) of X · Wᵀ, added one after another. -/
theorem acc_eq (c : Dev nD) : ∀ (n : ℕ) (hn : n < cfg2.N) (p : Fin 512) (q : Fin 1024),
    (outsAt2 V c n hn).2 (ix2 p q)
      = Cert.Lib.accRuns (runSum (xarr V c) (warr V c) (rowOf ⟨n, hn⟩ p) (colOf ⟨n, hn⟩ q)) (n % 4)
  | 0, hn, p, q => acc_first V c ⟨0, hn⟩ rfl p q
  | n + 1, hn, p, q => by
    by_cases h0 : (n + 1) % 4 = 0
    · rw [h0]
      exact acc_first V c ⟨n + 1, hn⟩ h0 p q
    · have hk : (n + 1) % 4 = n % 4 + 1 := by omega
      have hr : rowOf ⟨n + 1, hn⟩ p = rowOf ⟨n, Nat.lt_of_succ_lt hn⟩ p :=
        Fin.ext (by show (n + 1) / 16 * 512 + p.val = n / 16 * 512 + p.val; omega)
      have hc : colOf ⟨n + 1, hn⟩ q = colOf ⟨n, Nat.lt_of_succ_lt hn⟩ q :=
        Fin.ext (by show (n + 1) / 4 % 4 * 1024 + q.val = n / 4 % 4 * 1024 + q.val; omega)
      refine (acc_next V c ⟨n + 1, hn⟩ h0 p q).trans ?_
      show (outsAt2 V c n (Nat.lt_of_succ_lt hn)).2 (ix2 p q)
          + runSum (xarr V c) (warr V c) (rowOf ⟨n + 1, hn⟩ p) (colOf ⟨n + 1, hn⟩ q) ((n + 1) % 4) = _
      rw [acc_eq c n (Nat.lt_of_succ_lt hn) p q, hk, Cert.Lib.accRuns_succ, hr, hc]

/-! ## What is written back, and where -/

/-- What the output block holds after a position with k = 3: entry (p, q) is entry (i·512 + p, j·1024 + q) of X · Wᵀ + b. -/
theorem out_point (c : Dev nD) (t : Fin cfg2.N) (h3 : t.val % 4 = 3) (p : Fin 512) (q : Fin 1024) :
    (outsAt2 V c t.val t.isLt).1 (ix2 p q)
      = Cert.Spec.linT (xarr V c) (warr V c) (barr V c) (ix2 (rowOf t p) (colOf t q)) := by
  refine (out_last V c t h3 p q).trans ?_
  rw [acc_eq V c t.val t.isLt p q, h3, accRuns_last]
  rfl

/-- The block a position with k = 3 writes back is the block (i, j) of X · Wᵀ + b. -/
theorem flushed_eq (c : Dev nD) (t : Fin cfg2.N) (hf : (cfg2.win 3).flush t = true) :
    (dat2 (F := Ideal) V c).flushed 3 t
      = ((cfg2.win 3).blk t).view.read (Elt Ideal) (Cert.Spec.linT (xarr V c) (warr V c) (barr V c)) := by
  have h3 : t.val % 4 = 3 := (flush2_3 t).mp hf
  obtain ⟨-, -, -, -, -, -, e6, e7⟩ := blockIdx t
  show (cfg2.win 3).cut (grid2.coords t) ((dat2 (F := Ideal) V c).after 3 t) = _
  rw [after2_3]
  funext y
  obtain ⟨p, q, rfl⟩ : ∃ (p : Fin 512) (q : Fin 1024), y = ix2 p q := ⟨y 0, y 1, eq_ix2 y⟩
  show (outsAt2 V c t.val t.isLt).1 (ix2 p q)
      = Cert.Spec.linT (xarr V c) (warr V c) (barr V c) (((cfg2.win 3).blk t).view.emb (ix2 p q))
  refine (out_point V c t h3 p q).trans ?_
  refine congrArg (Cert.Spec.linT (xarr V c) (warr V c) (barr V c)) (funext fun a => Fin.ext ?_)
  match a with
  | ⟨0, _⟩ => show t.val / 16 * 512 + p.val = win2_3.index t (0 : Fin 2) * 512 + 1 * p.val; rw [e6]; omega
  | ⟨1, _⟩ => show t.val / 4 % 4 * 1024 + q.val = win2_3.index t (1 : Fin 2) * 1024 + 1 * q.val; rw [e7]; omega

/-- Every entry of the output array lies in the block written back at the position (i, j, 3) of its block row i and
    block column j. -/
theorem covered (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, h3, hI, hJ⟩ := blockOnto ⟨(i 0).val / 512, by omega⟩ ⟨(i 1).val / 1024, by omega⟩
  have hI' : t.val / 16 = (i 0).val / 512 := hI
  have hJ' : t.val / 4 % 4 = (i 1).val / 1024 := hJ
  obtain ⟨-, -, -, -, -, -, e6, e7⟩ := blockIdx t
  refine ⟨t, (flush2_3 t).mpr h3, ?_⟩
  show i ∈ ((View.whole main_v21).slice (win2_3.rect t)).set
  rw [View.set_slice_whole, Rect.mem_set_unit]
  intro a
  match a with
  | ⟨0, _⟩ =>
    show win2_3.index t (0 : Fin 2) * 512 ≤ (i 0).val ∧ (i 0).val < win2_3.index t (0 : Fin 2) * 512 + 512
    rw [e6, hI']; omega
  | ⟨1, _⟩ =>
    show win2_3.index t (1 : Fin 2) * 1024 ≤ (i 1).val ∧ (i 1).val < win2_3.index t (1 : Fin 2) * 1024 + 1024
    rw [e7, hJ']; omega

end Cert.KernelIdeal.Val.R2

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- THE REGION'S VALUE: the output array ends at X · Wᵀ + b. -/
theorem arr2_eq (c : Dev nD) :
    (dat2 (F := Ideal) V c).arrAt 3 cfg2.N = Cert.Spec.linT (V c main_v17) (V c main_v20) (V c main_v18) :=
  (dat2 (F := Ideal) V c).arrAt_eq_of_cover 3 (Cert.Spec.linT (R2.xarr V c) (R2.warr V c) (R2.barr V c))
    (fun t hf => R2.flushed_eq V c t hf) (fun i => R2.covered i)

end Cert.KernelIdeal.Val

end
-- ==== Proof.HostValue.lean ====
/-
  What the host operations around the three kernel calls leave in their arrays, over the extended reals (where a
  change of float format is the identity).

  Before the kernels: the dequantised weight, transposed,
      w0[o,i] = ((q[i,o] / 15) · 2 − 1) · scale ;
  the two orthogonal factors unchanged; the input divided by the diagonal with its two leading axes flattened,
      xn[b·2048 + s, i] = x[b,s,i] / d[i] ;
  and the bias as a one-row matrix. After the kernels: the flattened result with its leading axis split again,
      out[b,s,o] = y[b·2048 + s, o].

  Every pointwise operation reads through at an index; a transpose swaps the two coordinates; a scalar copied to a
  matrix reads the scalar; a vector copied along leading axes reads the trailing coordinate; a reshape keeps the
  row-major position, which for (b, s, i) in [4, 2048, 4096] and (r, i) in [8192, 4096] is (b·2048 + s)·4096 + i
  = r·4096 + i, so r = b·2048 + s, b = r / 2048, s = r % 2048.
-/
import proofs.«105784_j76063870812747_1_alg».proof.Proof.Gen.KernelIdeal.Launch
import proofs.«105784_j76063870812747_1_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal

noncomputable section

namespace Cert.KernelIdeal.Val

open Cert.KernelIdeal Cert.KernelIdeal.Gen Idealize.ShloMosaic Idealize.ShloMosaic.TcCoe Idealize.ShloMosaic.ValueIdx

/-! ## The operations' terms, over arbitrary operands -/

/-- The dequantisation chain as the host writes it: the integer matrix transposed, read as a real, divided by 15,
    doubled, less one, times the scale; the narrowing at the end changes nothing over the extended reals. -/
def deqTerm (q : IVec S4096x4096 32) (sc : FVec Ideal S_ .f32) : FVec Ideal S4096x4096 .bf16 :=
  truncf .bf16 (mulf (subf (mulf (Host.divf (sitofp .f32 (transpose S4096x4096 [1, 0] q transposes_S4096x4096_S4096x4096_1_0))
      (broadcastInDim S4096x4096 ![] bcast_S_S4096x4096 (constant (F := Ideal) S_ .f32 0x41700000#32)))
      (broadcastInDim S4096x4096 ![] bcast_S_S4096x4096 (constant (F := Ideal) S_ .f32 0x40000000#32)))
      (broadcastInDim S4096x4096 ![] bcast_S_S4096x4096 (constant (F := Ideal) S_ .f32 0x3F800000#32)))
      (broadcastInDim S4096x4096 ![] bcast_S_S4096x4096 sc)) bitsLt_bf16_f32

/-- At entry (o, i) the chain reads the integer at (i, o) and the one scale. -/
theorem deqTerm_eq (q : IVec S4096x4096 32) (sc : FVec Ideal S_ .f32) : deqTerm q sc = Cert.Spec.w0 q sc := by
  funext j
  obtain ⟨o, i, rfl⟩ : ∃ (o i : Fin 4096), j = ix2 o i := ⟨j 0, j 1, eq_ix2 j⟩
  show (Ideal.div ((((transpose S4096x4096 [1, 0] q transposes_S4096x4096_S4096x4096_1_0 (ix2 o i)).toInt : ℝ) : EReal))
        (broadcastInDim S4096x4096 ![] bcast_S_S4096x4096 (constant (F := Ideal) S_ .f32 0x41700000#32) (ix2 o i))
        * broadcastInDim S4096x4096 ![] bcast_S_S4096x4096 (constant (F := Ideal) S_ .f32 0x40000000#32) (ix2 o i)
        - broadcastInDim S4096x4096 ![] bcast_S_S4096x4096 (constant (F := Ideal) S_ .f32 0x3F800000#32) (ix2 o i))
        * broadcastInDim S4096x4096 ![] bcast_S_S4096x4096 sc (ix2 o i) = _
  rw [transpose_ix2_apply, broadcastInDim_scalar_apply, broadcastInDim_scalar_apply, broadcastInDim_scalar_apply,
    broadcastInDim_scalar_apply]
  rfl

/-- The input divided by the diagonal copied along the two leading axes, then the two leading axes flattened. -/
def xnTerm (x : FVec Ideal S4x2048x4096 .f32) (d : FVec Ideal S4096 .f32) : FVec Ideal S8192x4096 .bf16 :=
  shapeCast S8192x4096 (truncf .bf16 (Host.divf x (broadcastInDim S4x2048x4096 ![0, 1, 2] bcast_S1x1x4096_S4x2048x4096_0_1_2
    (broadcastInDim S1x1x4096 ![2] bcast_S4096_S1x1x4096_2 d))) bitsLt_bf16_f32) shapeCasts_S4x2048x4096_S8192x4096

/-- Row r of the flattened array is row (r / 2048, r % 2048) of the input: both have row-major position r · 4096 + i. -/
theorem xnTerm_eq (x : FVec Ideal S4x2048x4096 .f32) (d : FVec Ideal S4096 .f32) : xnTerm x d = Cert.Spec.xn x d := by
  funext j
  obtain ⟨r, i, rfl⟩ : ∃ (r : Fin 8192) (i : Fin 4096), j = ix2 r i := ⟨j 0, j 1, eq_ix2 j⟩
  have hr : r.val < 8192 := r.isLt
  unfold xnTerm
  refine (shapeCast_apply _ shapeCasts_S4x2048x4096_S8192x4096 (ix2 r i)
    (ix3 (⟨r.val / 2048, by omega⟩ : Fin 4) (⟨r.val % 2048, Nat.mod_lt _ (by decide)⟩ : Fin 2048) i) ?_).trans ?_
  · rw [Shape.rowMajor_val_three, Shape.rowMajor_val_two]
    show (r.val / 2048 * 2048 + r.val % 2048) * 4096 + i.val = r.val * 4096 + i.val
    omega
  · show Ideal.div (x (ix3 (⟨r.val / 2048, by omega⟩ : Fin 4) (⟨r.val % 2048, Nat.mod_lt _ (by decide)⟩ : Fin 2048) i))
        (broadcastInDim S4x2048x4096 ![0, 1, 2] bcast_S1x1x4096_S4x2048x4096_0_1_2
          (broadcastInDim S1x1x4096 ![2] bcast_S4096_S1x1x4096_2 d)
          (ix3 (⟨r.val / 2048, by omega⟩ : Fin 4) (⟨r.val % 2048, Nat.mod_lt _ (by decide)⟩ : Fin 2048) i)) = _
    rw [broadcastInDim_apply _ bcast_S1x1x4096_S4x2048x4096_0_1_2 _ _ (ix3 (0 : Fin 1) (0 : Fin 1) i)
          (fun a => match a with | ⟨0, _⟩ => rfl | ⟨1, _⟩ => rfl | ⟨2, _⟩ => rfl),
      broadcastInDim_apply _ bcast_S4096_S1x1x4096_2 d (ix3 (0 : Fin 1) (0 : Fin 1) i) (ix1 i)
          (fun a => match a with | ⟨0, _⟩ => rfl)]
    rfl

/-- A vector read as a one-row matrix. -/
theorem row_eq (b : FVec Ideal S4096 .f32) :
    shapeCast S1x4096 b shapeCasts_S4096_S1x4096 = Cert.Spec.biasRow b := by
  funext j
  obtain ⟨u, i, rfl⟩ : ∃ (u : Fin 1) (i : Fin 4096), j = ix2 u i := ⟨j 0, j 1, eq_ix2 j⟩
  exact shapeCast_a_1a_apply b shapeCasts_S4096_S1x4096 u i

/-- The flattened array read with its leading axis split again: entry (b, s, o) is entry (b · 2048 + s, o). -/
theorem unflat_eq {α : Type} (y : S8192x4096.Idx → α) :
    shapeCast S4x2048x4096 y shapeCasts_S8192x4096_S4x2048x4096
      = fun j : S4x2048x4096.Idx => y (ix2 (Cert.Spec.flatRow (j 0 : Fin 4) (j 1 : Fin 2048)) (j 2 : Fin 4096)) := by
  funext j
  obtain ⟨b, s, o, rfl⟩ : ∃ (b : Fin 4) (s : Fin 2048) (o : Fin 4096), j = ix3 b s o := ⟨j 0, j 1, j 2, eq_ix3 j⟩
  refine (shapeCast_apply y shapeCasts_S8192x4096_S4x2048x4096 (ix3 b s o) (ix2 (Cert.Spec.flatRow b s) o) ?_).trans rfl
  rw [Shape.rowMajor_val_two, Shape.rowMajor_val_three]
  rfl

/-! ## What the host operations leave in each array -/

variable (W : Valuation τ sig (Elt Ideal))

theorem host_v10 :
    (StableHlo.after (hostOps0 (F := Ideal)) W main_v10 : S4096x4096.Idx → EReal) = Cert.Spec.w0 (W main_arg1) (W main_arg2) := by
  have e : (StableHlo.after (hostOps0 (F := Ideal)) W main_v10 : S4096x4096.Idx → EReal) = deqTerm (W main_arg1) (W main_arg2) := by
    after_results; rfl
  rw [e]; exact deqTerm_eq _ _

theorem host_v11 : (StableHlo.after (hostOps0 (F := Ideal)) W main_v11 : S4096x4096.Idx → EReal) = W main_arg5 := by
  after_results; rfl

theorem host_v12 : (StableHlo.after (hostOps0 (F := Ideal)) W main_v12 : S4096x4096.Idx → EReal) = W main_arg6 := by
  after_results; rfl

theorem host_v17 :
    (StableHlo.after (hostOps0 (F := Ideal)) W main_v17 : S8192x4096.Idx → EReal) = Cert.Spec.xn (W main_arg0) (W main_arg3) := by
  have e : (StableHlo.after (hostOps0 (F := Ideal)) W main_v17 : S8192x4096.Idx → EReal) = xnTerm (W main_arg0) (W main_arg3) := by
    after_results; rfl
  rw [e]; exact xnTerm_eq _ _

theorem host_v18 : (StableHlo.after (hostOps0 (F := Ideal)) W main_v18 : S1x4096.Idx → EReal) = Cert.Spec.biasRow (W main_arg4) := by
  have e : (StableHlo.after (hostOps0 (F := Ideal)) W main_v18 : S1x4096.Idx → EReal)
      = shapeCast S1x4096 (W main_arg4 : FVec Ideal S4096 .f32) shapeCasts_S4096_S1x4096 := by
    after_results; rfl
  rw [e]; exact row_eq _

theorem tail_v22 :
    (StableHlo.after (hostOps3 (F := Ideal)) W main_v22 : S4x2048x4096.Idx → EReal)
      = fun j : S4x2048x4096.Idx => (W main_v21 : S8192x4096.Idx → EReal) (ix2 (Cert.Spec.flatRow (j 0 : Fin 4) (j 1 : Fin 2048)) (j 2 : Fin 4096)) := by
  have e : (StableHlo.after (hostOps3 (F := Ideal)) W main_v22 : S4x2048x4096.Idx → EReal)
      = shapeCast S4x2048x4096 (W main_v21 : S8192x4096.Idx → EReal) shapeCasts_S8192x4096_S4x2048x4096 := by
    after_results; rfl
  rw [e]; exact unflat_eq _

end Cert.KernelIdeal.Val

end
-- ==== Proof.Result.lean ====
/-
  The result of the idealized kernel program: after the closing reshape the result buffer holds the specification's
  function of the seven arguments. The chain: the closing reshape reads the third call's output at the flattened row;
  the third call's output is X · Wᵀ + b of its three operand arrays; X is the rescaled, flattened input and b the bias
  row, written by the opening host stretch and untouched since; W is the second call's output, tmp · V, of the first
  call's output tmp = Uᵀ · w0 and of V; U, V and the dequantised w0 come from the opening host stretch.
-/
import proofs.«105784_j76063870812747_1_alg».proof.Proof.Run
import proofs.«105784_j76063870812747_1_alg».proof.Proof.R0Value
import proofs.«105784_j76063870812747_1_alg».proof.Proof.R1Value
import proofs.«105784_j76063870812747_1_alg».proof.Proof.R2Value
import proofs.«105784_j76063870812747_1_alg».proof.Proof.HostValue
import proofs.«105784_j76063870812747_1_alg».proof.Proof.Spec

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The result buffer after the last item is the specification's function of the launch contents of the arguments. -/
theorem result_eq (c : Dev nD) :
    Frm.W5 (F := Ideal) m c (Proc.devRef .tc main_v22)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e22 : Frm.W5 (F := Ideal) m c (Proc.devRef .tc main_v22)
      = fun j => Frm.W4 (F := Ideal) m c (Proc.devRef .tc main_v21) (ix2 (Cert.Spec.flatRow (j 0) (j 1)) (j 2)) := tail_v22 (Frm.W4 m c)
  have e21 : Frm.W4 (F := Ideal) m c (Proc.devRef .tc main_v21) = Cert.Spec.linT (Frm.V3 m c main_v17) (Frm.V3 m c main_v20) (Frm.V3 m c main_v18) :=
    (Frm.W4_arr m c 3).trans (arr2_eq (Frm.V3 m) c)
  have e17 : Frm.V3 (F := Ideal) m c main_v17 = Cert.Spec.xn (m ((c.tc : Thread nD τ).loc main_arg0)) (m ((c.tc : Thread nD τ).loc main_arg3)) :=
    (Frm.W3_of_ne m c main_v17 (by decide)).trans ((Frm.W2_of_ne m c main_v17 (by decide)).trans (host_v17 (Frm.W0 m c)))
  have e18 : Frm.V3 (F := Ideal) m c main_v18 = Cert.Spec.biasRow (m ((c.tc : Thread nD τ).loc main_arg4)) :=
    (Frm.W3_of_ne m c main_v18 (by decide)).trans ((Frm.W2_of_ne m c main_v18 (by decide)).trans (host_v18 (Frm.W0 m c)))
  have e20 : Frm.V3 (F := Ideal) m c main_v20 = Cert.Spec.mulNN (Frm.V2 m c main_v19) (Frm.V2 m c main_v12) :=
    (Frm.W3_arr m c 2).trans (arr1_eq (Frm.V2 m) c)
  have e19 : Frm.V2 (F := Ideal) m c main_v19 = Cert.Spec.mulTN (Frm.V1 m c main_v11) (Frm.V1 m c main_v10) :=
    (Frm.W2_arr m c 2).trans (arr0_eq (Frm.V1 m) c)
  have e12 : Frm.V2 (F := Ideal) m c main_v12 = (m ((c.tc : Thread nD τ).loc main_arg6)) :=
    (Frm.W2_of_ne m c main_v12 (by decide)).trans (host_v12 (Frm.W0 m c))
  have e11 : Frm.V1 (F := Ideal) m c main_v11 = (m ((c.tc : Thread nD τ).loc main_arg5)) := host_v11 (Frm.W0 m c)
  have e10 : Frm.V1 (F := Ideal) m c main_v10 = Cert.Spec.w0 (m ((c.tc : Thread nD τ).loc main_arg1)) (m ((c.tc : Thread nD τ).loc main_arg2)) := host_v10 (Frm.W0 m c)
  rw [e22, e21, e17, e18, e20, e19, e12, e11, e10]
  rfl

end Cert.KernelIdeal.Val

end
-- ==== Proof.RefValue.lean ====
/-
  The reference program's result, read back, is the specification's function of the arguments.
-/
import proofs.«105784_j76063870812747_1_alg».proof.Proof.Gen.ReferenceIdeal.Read
import proofs.«105784_j76063870812747_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-- The dequantised, transposed weight: the stage after the last pointwise operation on the integer matrix is
    w0[o,i] = ((q[i,o] / 15) · 2 − 1) · scale. -/
theorem w0_eq (x1 : (⟨S4096x4096, .i32⟩ : BufTy).Contents (Elt Ideal)) (x2 : (⟨S_, .f32⟩ : BufTy).Contents (Elt Ideal)) :
    val_main_v9 (F := Ideal) x1 x2 = Cert.Spec.w0 x1 x2 := by
  funext j
  have e0 : idx_main_v0 j = ix2 (j 1 : Fin 4096) (j 0 : Fin 4096) :=
    funext fun a => Fin.ext (by match a with | ⟨0, _⟩ => rfl | ⟨1, _⟩ => rfl)
  rw [val_main_v9_apply, val_main_v7_apply, val_main_v5_apply, val_main_v3_apply, val_main_v1_apply, val_main_v0_apply,
    val_main_v2_apply, val_main_cst_apply, val_main_v4_apply, val_main_cst_0_apply, val_main_v6_apply, val_main_cst_1_apply,
    val_main_v8_apply, e0]
  simp only [Ideal.mulf_def, Ideal.subf_def, Ideal.hostDivf_def, Ideal.ofBits_def]
  rfl

/-- The explicit transpose of U followed by a plain product: (Uᵀ · w0)[o,i] = Σₖ U[k,o] · w0[k,i]. -/
theorem v11_eq (x1 : (⟨S4096x4096, .i32⟩ : BufTy).Contents (Elt Ideal)) (x2 : (⟨S_, .f32⟩ : BufTy).Contents (Elt Ideal))
    (x5 : (⟨S4096x4096, .f32⟩ : BufTy).Contents (Elt Ideal)) :
    val_main_v11 (F := Ideal) x1 x2 x5 = Cert.Spec.mulTN x5 (Cert.Spec.w0 x1 x2) := by
  funext j
  rw [val_main_v11_apply, w0_eq]
  show _ = ∑ k : Fin 4096, x5 (ix2 k (j 0 : Fin 4096)) * Cert.Spec.w0 x1 x2 (ix2 k (j 1 : Fin 4096))
  refine Finset.sum_congr rfl fun k _ => ?_
  have el : idx_main_v10 (lidx_main_v11 j k) = ix2 k (j 0 : Fin 4096) :=
    funext fun a => Fin.ext (by match a with | ⟨0, _⟩ => rfl | ⟨1, _⟩ => rfl)
  have er : ridx_main_v11 j k = ix2 k (j 1 : Fin 4096) :=
    funext fun a => Fin.ext (by match a with | ⟨0, _⟩ => rfl | ⟨1, _⟩ => rfl)
  rw [val_main_v10_apply, el, er]
  rfl

/-- The second product is by V on the right: the transformed weight w1 = (Uᵀ · w0) · V. -/
theorem v12_eq (x1 : (⟨S4096x4096, .i32⟩ : BufTy).Contents (Elt Ideal)) (x2 : (⟨S_, .f32⟩ : BufTy).Contents (Elt Ideal))
    (x5 x6 : (⟨S4096x4096, .f32⟩ : BufTy).Contents (Elt Ideal)) :
    val_main_v12 (F := Ideal) x1 x2 x5 x6 = Cert.Spec.w1 x1 x2 x5 x6 := by
  funext j
  rw [val_main_v12_apply, v11_eq]
  show _ = ∑ k : Fin 4096, Cert.Spec.mulTN x5 (Cert.Spec.w0 x1 x2) (ix2 (j 0 : Fin 4096) k) * x6 (ix2 k (j 1 : Fin 4096))
  refine Finset.sum_congr rfl fun k _ => ?_
  have el : lidx_main_v12 j k = ix2 (j 0 : Fin 4096) k :=
    funext fun a => Fin.ext (by match a with | ⟨0, _⟩ => rfl | ⟨1, _⟩ => rfl)
  have er : ridx_main_v12 j k = ix2 k (j 1 : Fin 4096) :=
    funext fun a => Fin.ext (by match a with | ⟨0, _⟩ => rfl | ⟨1, _⟩ => rfl)
  rw [el, er]
  rfl

/-- The diagonal rescaling divides column i of the transformed weight by d[i]: the doubly broadcast vector read at
    (o, i) is d[i]. -/
theorem v15_apply (x1 : (⟨S4096x4096, .i32⟩ : BufTy).Contents (Elt Ideal)) (x2 : (⟨S_, .f32⟩ : BufTy).Contents (Elt Ideal))
    (x3 : (⟨S4096, .f32⟩ : BufTy).Contents (Elt Ideal)) (x5 x6 : (⟨S4096x4096, .f32⟩ : BufTy).Contents (Elt Ideal))
    (o k : Fin 4096) :
    val_main_v15 (F := Ideal) x1 x2 x3 x5 x6 (ix2 o k) = Ideal.div (Cert.Spec.w1 x1 x2 x5 x6 (ix2 o k)) (x3 (ix1 k)) := by
  have e : idx_main_v13 (idx_main_v14 (ix2 o k)) = ix1 k :=
    funext fun a => Fin.ext (by match a with | ⟨0, _⟩ => rfl)
  rw [val_main_v15_apply, v12_eq, val_main_v14_apply, val_main_v13_apply, e]
  rfl

/-- THE REFERENCE'S VALUE: out[b,s,o] = Σᵢ x[b,s,i] · (w1[o,i] / d[i]) + bias[o]. -/
theorem ref_eq (x0 : (⟨S4x2048x4096, .f32⟩ : BufTy).Contents (Elt Ideal)) (x1 : (⟨S4096x4096, .i32⟩ : BufTy).Contents (Elt Ideal))
    (x2 : (⟨S_, .f32⟩ : BufTy).Contents (Elt Ideal)) (x3 x4 : (⟨S4096, .f32⟩ : BufTy).Contents (Elt Ideal))
    (x5 x6 : (⟨S4096x4096, .f32⟩ : BufTy).Contents (Elt Ideal)) :
    val_main_v19 (F := Ideal) x0 x1 x2 x3 x4 x5 x6 = Cert.Spec.Gref x0 x1 x2 x3 x4 x5 x6 := by
  funext j
  obtain ⟨b, s, o, rfl⟩ : ∃ (b : Fin 4) (s : Fin 2048) (o : Fin 4096), j = ix3 b s o := ⟨j 0, j 1, j 2, eq_ix3 j⟩
  have eb : idx_main_v17 (idx_main_v18 (ix3 b s o)) = ix1 o :=
    funext fun a => Fin.ext (by match a with | ⟨0, _⟩ => rfl)
  rw [val_main_v19_apply, val_main_v16_apply, val_main_v18_apply, val_main_v17_apply, eb]
  show (∑ k : Fin 4096, x0 (lidx_main_v16 (ix3 b s o) k) * val_main_v15 (F := Ideal) x1 x2 x3 x5 x6 (ridx_main_v16 (ix3 b s o) k)) + x4 (ix1 o)
      = (∑ k : Fin 4096, x0 (ix3 b s k) * Ideal.div (Cert.Spec.w1 x1 x2 x5 x6 (ix2 o k)) (x3 (ix1 k))) + x4 (ix1 o)
  refine congrArg (· + x4 (ix1 o)) (Finset.sum_congr rfl fun k _ => ?_)
  have el : lidx_main_v16 (ix3 b s o) k = ix3 b s k :=
    funext fun a => Fin.ext (by match a with | ⟨0, _⟩ => rfl | ⟨1, _⟩ => rfl | ⟨2, _⟩ => rfl)
  have er : ridx_main_v16 (ix3 b s o) k = ix2 o k :=
    funext fun a => Fin.ext (by match a with | ⟨0, _⟩ => rfl | ⟨1, _⟩ => rfl)
  rw [el, er, v15_apply]

/-- THE REFERENCE'S RUN, at the specification: from any memory whose diagonal has no zero entry, every weakly fair
    execution of the reference terminates with its result the specification's function (in the kernel's
    arrangement) of the arguments, and the arguments unchanged. The run gives the result as the composed term of
    the operations; that term is the last stage, the last stage is the reference's arrangement, and where the
    diagonal is nonzero the two arrangements agree. -/
theorem ref_run_G (m : (ℓ : Loc nD τ sig) → Buf (Elt Ideal) ℓ) (ρ : Dev nD → PrngReg)
    (hd : ∀ (c : Dev nD) (k : Fin 4096), (m ((c.tc : Thread nD τ).loc main_arg3)) (ix1 k) ≠ (0 : EReal)) :
    θ_run defs (onTc (τ := τ) (main (F := Ideal))) ⟨m, fun _ => 0, ρ⟩ (fun r => ∀ c : Dev nD,
      r.2.mem ((c.tc : Thread nD τ).loc main_v19) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c).1.trans ((val_main_v19_eq (F := Ideal) _ _ _ _ _ _ _).trans
          ((ref_eq _ _ _ _ _ _ _).trans (Cert.Spec.G_eq_Gref _ _ _ _ _ _ _ (hd c)).symm)), (h c).2⟩)
    (Cert.ReferenceIdeal.Value.run (F := Ideal) m ρ)

end Cert.ReferenceIdeal.RefValue

end
-- ==== Proof.PreDecode.lean ====
/-
  The printed precondition's last conjunct, read back: every entry of the diagonal is nonzero.
-/
import proofs.«105784_j76063870812747_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx

/-- The rank-0 shape has one index. -/
instance : Subsingleton Cert.Pre_finite_inputs.S_.Idx := ⟨fun a b => funext fun d => d.elim0⟩

/-- The precondition is a conjunction of i1 words whose last one is the conjunction, over all k, of d[k] ≠ 0 (each
    a comparison against the broadcast zero). If the whole is 1 then so is that last word, hence each of its 4096
    comparisons, and a comparison "unordered or not equal" on the extended reals is 1 exactly when its sides differ. -/
theorem scale_ne_zero [Cert.Pre_finite_inputs.Facts] (a0 : FVec Ideal Cert.Pre_finite_inputs.S4x2048x4096 .f32)
    (a1 : IVec Cert.Pre_finite_inputs.S4096x4096 32) (a2 : FVec Ideal Cert.Pre_finite_inputs.S_ .f32)
    (a3 a4 : FVec Ideal Cert.Pre_finite_inputs.S4096 .f32) (a5 a6 : FVec Ideal Cert.Pre_finite_inputs.S4096x4096 .f32)
    (h : Cert.Pre_finite_inputs.fn (F := Ideal) a0 a1 a2 a3 a4 a5 a6 = fun _ => 1#1) (k : Fin 4096) :
    a3 (Idealize.ShloMosaic.ValueIdx.ix1 k) ≠ 0 := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 k)
  have hb : broadcastInDim Cert.Pre_finite_inputs.S4096 ![] Cert.Pre_finite_inputs.Facts.bcast_S_S4096
      (constant (F := Ideal) Cert.Pre_finite_inputs.S_ .f32 0x00000000#32) (ix1 k) = 0 :=
    (broadcastInDim_apply _ _ _ (ix1 k) ix0 (fun a => a.elim0)).trans Ideal.ofBits_zero_f32
  intro hz
  rw [cmpf_apply, hb, hz] at h2
  change Ideal.cmp .une (0 : EReal) 0 = 1#1 at h2
  simp [Ideal.cmp] at h2

end Cert.PreDecode

end
-- ==== Proof.Claims.lean ====
/-
  The five claims. The two kernel programs run to the end, nothing faulting, with the argument arrays unchanged (the
  run of the five items, at the word-level instance and at the ideal one); the reference is a straight line of host
  operations; the idealization rewrote nothing; and at the ideal instance both programs end with the specification's
  function of the arguments in their result, equal because no entry of the diagonal is zero.
-/
import proofs.«105784_j76063870812747_1_alg».proof.Defs
import proofs.«105784_j76063870812747_1_alg».proof.Proof.Bits.Run
import proofs.«105784_j76063870812747_1_alg».proof.Proof.Run
import proofs.«105784_j76063870812747_1_alg».proof.Proof.Result
import proofs.«105784_j76063870812747_1_alg».proof.Proof.RefValue
import proofs.«105784_j76063870812747_1_alg».proof.Proof.PreDecode
import proofs.«105784_j76063870812747_1_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the specification's function of its arguments; so is the reference's, of arguments that
    agree, where the diagonal has no zero entry — which the precondition says. -/
theorem algebraic : Cert.algebraic_KernelIdeal_ReferenceIdeal := by
  intro m ρ m' ρ' hpre hagree
  have hd : ∀ (c : Dev Cert.KernelIdeal.nD) (k : Fin 4096),
      (m ((c.tc : Thread Cert.KernelIdeal.nD Cert.KernelIdeal.τ).loc Cert.KernelIdeal.main_arg3)) (ValueIdx.ix1 k) ≠ (0 : EReal) :=
    fun c k => Cert.PreDecode.scale_ne_zero _ _ _ _ _ _ _ (hpre c) k
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.Frm.run_main (F := Ideal) m ρ)
    exact ⟨(h c _ (Cert.KernelIdeal.Frm.mem_uc Cert.KernelIdeal.main_v22 (by decide))).trans (Cert.KernelIdeal.Val.result_eq m c),
      (h c _ (Cert.KernelIdeal.Frm.mem_uc Cert.KernelIdeal.main_arg0 (by decide))).trans (Cert.KernelIdeal.Frm.W5_main_arg0 m c),
      (h c _ (Cert.KernelIdeal.Frm.mem_uc Cert.KernelIdeal.main_arg1 (by decide))).trans (Cert.KernelIdeal.Frm.W5_main_arg1 m c),
      (h c _ (Cert.KernelIdeal.Frm.mem_uc Cert.KernelIdeal.main_arg2 (by decide))).trans (Cert.KernelIdeal.Frm.W5_main_arg2 m c),
      (h c _ (Cert.KernelIdeal.Frm.mem_uc Cert.KernelIdeal.main_arg3 (by decide))).trans (Cert.KernelIdeal.Frm.W5_main_arg3 m c),
      (h c _ (Cert.KernelIdeal.Frm.mem_uc Cert.KernelIdeal.main_arg4 (by decide))).trans (Cert.KernelIdeal.Frm.W5_main_arg4 m c),
      (h c _ (Cert.KernelIdeal.Frm.mem_uc Cert.KernelIdeal.main_arg5 (by decide))).trans (Cert.KernelIdeal.Frm.W5_main_arg5 m c),
      (h c _ (Cert.KernelIdeal.Frm.mem_uc Cert.KernelIdeal.main_arg6 (by decide))).trans (Cert.KernelIdeal.Frm.W5_main_arg6 m c)⟩
  · have hd' : ∀ (c : Dev Cert.ReferenceIdeal.nD) (k : Fin 4096),
        (m' ((c.tc : Thread Cert.ReferenceIdeal.nD Cert.ReferenceIdeal.τ).loc Cert.ReferenceIdeal.main_arg3)) (ValueIdx.ix1 k) ≠ (0 : EReal) :=
      fun c k => by rw [(hagree c).2.2.2.1]; exact hd c k
    refine (θ_run Cert.ReferenceIdeal.defs _ _).mono (fun _ h c => ⟨?_, (h c).2⟩) (Cert.ReferenceIdeal.RefValue.ref_run_G m' ρ' hd')
    rw [(h c).1, (hagree c).1, (hagree c).2.1, (hagree c).2.2.1, (hagree c).2.2.2.1, (hagree c).2.2.2.2.1, (hagree c).2.2.2.2.2.1, (hagree c).2.2.2.2.2.2]

end Cert.Proof.Claims

end
-- ==== Proof.lean ====
/-
  The certificate: a quantised linear layer — an int4 weight dequantised, carried through a two-sided orthogonal
  transform by two K-blocked matrix products, and applied to a diagonally rescaled input by a third, with a bias —
  against its reference, which rescales the weight instead of the input. Over the extended reals the two arrangements
  agree wherever the diagonal has no zero entry (where it has one the reference itself divides by zero), and that is
  the precondition under which the claims are stated. The proofs are in Proof/Claims.lean and the modules it imports.
-/
import proofs.«105784_j76063870812747_1_alg».proof.Defs
import proofs.«105784_j76063870812747_1_alg».proof.Proof.Gen.Kernel
import proofs.«105784_j76063870812747_1_alg».proof.Proof.Gen.Kernel.Skeleton
import proofs.«105784_j76063870812747_1_alg».proof.Proof.Gen.Kernel.Launch
import proofs.«105784_j76063870812747_1_alg».proof.Proof.Gen.Kernel.Regions
import proofs.«105784_j76063870812747_1_alg».proof.Proof.Gen.Kernel.Points
import proofs.«105784_j76063870812747_1_alg».proof.Proof.Gen.KernelIdeal
import proofs.«105784_j76063870812747_1_alg».proof.Proof.Gen.KernelIdeal.Skeleton
import proofs.«105784_j76063870812747_1_alg».proof.Proof.Gen.KernelIdeal.Launch
import proofs.«105784_j76063870812747_1_alg».proof.Proof.Gen.KernelIdeal.Regions
import proofs.«105784_j76063870812747_1_alg».proof.Proof.Gen.KernelIdeal.Points
import proofs.«105784_j76063870812747_1_alg».proof.Proof.Gen.ReferenceIdeal
import proofs.«105784_j76063870812747_1_alg».proof.Proof.Gen.Pre_finite_inputs
import proofs.«105784_j76063870812747_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
